-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S400000 : Shape := ⟨1, ![400000]⟩
abbrev S400000x128 : Shape := ⟨2, ![400000, 128]⟩
abbrev S400000x26 : Shape := ⟨2, ![400000, 26]⟩
abbrev S128x128 : Shape := ⟨2, ![128, 128]⟩
abbrev S128x26 : Shape := ⟨2, ![128, 26]⟩
abbrev S128x384 : Shape := ⟨2, ![128, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000 : S_.BroadcastsInDim S400000 (![] : Fin 0 → Fin S400000.rank)
  reducesTo_S400000_S_d0 : S400000.ReducesTo [0] S_
  bcast_S_S400000x128 : S_.BroadcastsInDim S400000x128 (![] : Fin 0 → Fin S400000x128.rank)
  reducesTo_S400000x128_S_d0_1 : S400000x128.ReducesTo [0, 1] S_
  bcast_S_S400000x26 : S_.BroadcastsInDim S400000x26 (![] : Fin 0 → Fin S400000x26.rank)
  reducesTo_S400000x26_S_d0_1 : S400000x26.ReducesTo [0, 1] S_
  bcast_S_S128x128 : S_.BroadcastsInDim S128x128 (![] : Fin 0 → Fin S128x128.rank)
  reducesTo_S128x128_S_d0_1 : S128x128.ReducesTo [0, 1] S_
  bcast_S_S128x26 : S_.BroadcastsInDim S128x26 (![] : Fin 0 → Fin S128x26.rank)
  reducesTo_S128x26_S_d0_1 : S128x26.ReducesTo [0, 1] S_
  bcast_S_S128x384 : S_.BroadcastsInDim S128x384 (![] : Fin 0 → Fin S128x384.rank)
  reducesTo_S128x384_S_d0_1 : S128x384.ReducesTo [0, 1] S_

variable [Facts]

def fn_part3 {F : FTy → Type} [FloatOps F] (main_arg3 : IVec S400000 32) (main_v50 : IVec S_ 1) : IVec S_ 1 :=
  let main_c_19 : IVec S_ 32 := constantI S_ 32 4294917296#32
  let main_v51 : IVec S400000 32 := broadcastInDim S400000 ![] bcast_S_S400000 main_c_19
  let main_v52 : IVec S400000 1 := cmpi .sge main_arg3 main_v51
  let main_c_20 : IVec S_ 32 := constantI S_ 32 50000#32
  let main_v53 : IVec S400000 32 := broadcastInDim S400000 ![] bcast_S_S400000 main_c_20
  let main_v54 : IVec S400000 1 := cmpi .slt main_arg3 main_v53
  let main_v55 : IVec S400000 1 := andi main_v52 main_v54
  let main_c_21 : IVec S_ 1 := constantI S_ 1 1#1
  let main_v56 : IVec S_ 1 := (fun x v => Host.reduce IntOp.andi x v reducesTo_S400000_S_d0 h_S_) main_v55 main_c_21
  let main_v57 : IVec S_ 1 := andi main_v50 main_v56
  main_v57

def fn_part2 {F : FTy → Type} [FloatOps F] (main_arg2 : IVec S400000 32) (main_arg3 : IVec S400000 32) (main_arg10 : FVec F S128x384 .f32) (main_arg11 : FVec F S128x384 .f32) (main_v33 : IVec S_ 1) : IVec S_ 1 :=
  let main_v34 : FVec F S128x384 .f32 := Host.absf main_arg10
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S128x384 .f32 := Host.absf main_arg11
  let main_cst_14 : FVec F S_ .f32 := constant S_ .f32 0x7F800000#32
  let main_v40 : FVec F S128x384 .f32 := broadcastInDim S128x384 ![] bcast_S_S128x384 main_cst_14
  let main_v41 : IVec S128x384 1 := cmpf .olt main_v39 main_v40
  let main_c_15 : IVec S_ 1 := constantI S_ 1 1#1
  let main_v42 : IVec S_ 1 := (fun x v => Host.reduce IntOp.andi x v reducesTo_S128x384_S_d0_1 h_S_) main_v41 main_c_15
  let main_v43 : IVec S_ 1 := andi main_v38 main_v42
  let main_c_16 : IVec S_ 32 := constantI S_ 32 4294917296#32
  let main_v44 : IVec S400000 32 := broadcastInDim S400000 ![] bcast_S_S400000 main_c_16
  let main_v45 : IVec S400000 1 := cmpi .sge main_arg2 main_v44
  let main_c_17 : IVec S_ 32 := constantI S_ 32 50000#32
  let main_v46 : IVec S400000 32 := broadcastInDim S400000 ![] bcast_S_S400000 main_c_17
  let main_v47 : IVec S400000 1 := cmpi .slt main_arg2 main_v46
  let main_v48 : IVec S400000 1 := andi main_v45 main_v47
  let main_c_18 : IVec S_ 1 := constantI S_ 1 1#1
  let main_v49 : IVec S_ 1 := (fun x v => Host.reduce IntOp.andi x v reducesTo_S400000_S_d0 h_S_) main_v48 main_c_18
  let main_v50 : IVec S_ 1 := andi main_v43 main_v49
  fn_part3 (F := F) main_arg3 main_v50

def fn_part1 {F : FTy → Type} [FloatOps F] (main_arg2 : IVec S400000 32) (main_arg3 : IVec S400000 32) (main_arg7 : FVec F S128x128 .f32) (main_arg8 : FVec F S128x26 .f32) (main_arg9 : FVec F S128x26 .f32) (main_arg10 : FVec F S128x384 .f32) (main_arg11 : FVec F S128x384 .f32) (main_v13 : IVec S_ 1) (main_v16 : IVec S400000x26 1) : IVec S_ 1 :=
  let main_c_5 : IVec S_ 1 := constantI S_ 1 1#1
  let main_v17 : IVec S_ 1 := (fun x v => Host.reduce IntOp.andi x v reducesTo_S400000x26_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x26 .f32 := Host.absf main_arg8
  let main_cst_8 : FVec F S_ .f32 := constant S_ .f32 0x7F800000#32
  let main_v25 : FVec F S128x26 .f32 := broadcastInDim S128x26 ![] bcast_S_S128x26 main_cst_8
  let main_v26 : IVec S128x26 1 := cmpf .olt main_v24 main_v25
  let main_c_9 : IVec S_ 1 := constantI S_ 1 1#1
  let main_v27 : IVec S_ 1 := (fun x v => Host.reduce IntOp.andi x v reducesTo_S128x26_S_d0_1 h_S_) main_v26 main_c_9
  let main_v28 : IVec S_ 1 := andi main_v23 main_v27
  let main_v29 : FVec F S128x26 .f32 := Host.absf main_arg9
  let main_cst_10 : FVec F S_ .f32 := constant S_ .f32 0x7F800000#32
  let main_v30 : FVec F S128x26 .f32 := broadcastInDim S128x26 ![] bcast_S_S128x26 main_cst_10
  let main_v31 : IVec S128x26 1 := cmpf .olt main_v29 main_v30
  let main_c_11 : IVec S_ 1 := constantI S_ 1 1#1
  let main_v32 : IVec S_ 1 := (fun x v => Host.reduce IntOp.andi x v reducesTo_S128x26_S_d0_1 h_S_) main_v31 main_c_11
  let main_v33 : IVec S_ 1 := andi main_v28 main_v32
  fn_part2 (F := F) main_arg2 main_arg3 main_arg10 main_arg11 main_v33

def fn {F : FTy → Type} [FloatOps F] (main_arg0 : FVec F S50000x128 .f32) (main_arg1 : IVec S50000 32) (main_arg2 : IVec S400000 32) (main_arg3 : IVec S400000 32) (main_arg4 : FVec F S400000 .f32) (main_arg5 : FVec F S400000x128 .f32) (main_arg6 : FVec F S400000x26 .f32) (main_arg7 : FVec F S128x128 .f32) (main_arg8 : FVec F S128x26 .f32) (main_arg9 : FVec F S128x26 .f32) (main_arg10 : FVec F S128x384 .f32) (main_arg11 : FVec F S128x384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000 .f32 := Host.absf main_arg4
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S400000x128 .f32 := Host.absf main_arg5
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S400000x26 .f32 := Host.absf main_arg6
  let main_cst_4 : FVec F S_ .f32 := constant S_ .f32 0x7F800000#32
  let main_v15 : FVec F S400000x26 .f32 := broadcastInDim S400000x26 ![] bcast_S_S400000x26 main_cst_4
  let main_v16 : IVec S400000x26 1 := cmpf .olt main_v14 main_v15
  fn_part1 (F := F) main_arg2 main_arg3 main_arg7 main_arg8 main_arg9 main_arg10 main_arg11 main_v13 main_v16
-- ==== Kernel.lean ====
abbrev S50000x128 : Shape := ⟨2, ![50000, 128]⟩
abbrev S50000 : Shape := ⟨1, ![50000]⟩
abbrev S400000 : Shape := ⟨1, ![400000]⟩
abbrev S400000x128 : Shape := ⟨2, ![400000, 128]⟩
abbrev S400000x26 : Shape := ⟨2, ![400000, 26]⟩
abbrev S128x128 : Shape := ⟨2, ![128, 128]⟩
abbrev S128x26 : Shape := ⟨2, ![128, 26]⟩
abbrev S128x384 : Shape := ⟨2, ![128, 384]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S128x256 : Shape := ⟨2, ![128, 256]⟩
abbrev S26x128 : Shape := ⟨2, ![26, 128]⟩
abbrev S26x256 : Shape := ⟨2, ![26, 256]⟩
abbrev S2000x128 : Shape := ⟨2, ![2000, 128]⟩
abbrev S2000x1 : Shape := ⟨2, ![2000, 1]⟩
abbrev S2000x26 : Shape := ⟨2, ![2000, 26]⟩
abbrev S2000x256 : Shape := ⟨2, ![2000, 256]⟩

abbrev nBuf : Space → Nat
  | .hbm => 93
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S400000, .i32⟩
  | .hbm, ⟨3, _⟩ => ⟨S400000, .i32⟩
  | .hbm, ⟨4, _⟩ => ⟨S400000, .f32⟩
  | .hbm, ⟨5, _⟩ => ⟨S400000x128, .f32⟩
  | .hbm, ⟨6, _⟩ => ⟨S400000x26, .f32⟩
  | .hbm, ⟨7, _⟩ => ⟨S128x128, .f32⟩
  | .hbm, ⟨8, _⟩ => ⟨S128x26, .f32⟩
  | .hbm, ⟨9, _⟩ => ⟨S128x26, .f32⟩
  | .hbm, ⟨10, _⟩ => ⟨S128x384, .f32⟩
  | .hbm, ⟨11, _⟩ => ⟨S128x384, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S1, .i32⟩
  | .hbm, ⟨21, _⟩ => ⟨S_, .i32⟩
  | .hbm, ⟨22, _⟩ => ⟨S400000x1, .i32⟩
  | .hbm, ⟨23, _⟩ => ⟨S400000x1, .i1⟩
  | .hbm, ⟨24, _⟩ => ⟨S1x1, .i32⟩
  | .hbm, ⟨25, _⟩ => ⟨S400000x1, .i32⟩
  | .hbm, ⟨26, _⟩ => ⟨S400000x1, .i1⟩
  | .hbm, ⟨27, _⟩ => ⟨S400000x1, .i1⟩
  | .hbm, ⟨28, _⟩ => ⟨S_, .i1⟩
  | .hbm, ⟨29, _⟩ => ⟨S400000, .i1⟩
  | .hbm, ⟨30, _⟩ => ⟨S400000x128, .f32⟩
  | .hbm, ⟨31, _⟩ => ⟨S400000x128, .i1⟩
  | .hbm, ⟨32, _⟩ => ⟨S_, .f32⟩
  | .hbm, ⟨33, _⟩ => ⟨S400000x128, .f32⟩
  | .hbm, ⟨34, _⟩ => ⟨S400000x128, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S1, .i32⟩
  | .hbm, ⟨44, _⟩ => ⟨S_, .i32⟩
  | .hbm, ⟨45, _⟩ => ⟨S400000x1, .i32⟩
  | .hbm, ⟨46, _⟩ => ⟨S400000x1, .i1⟩
  | .hbm, ⟨47, _⟩ => ⟨S1x1, .i32⟩
  | .hbm, ⟨48, _⟩ => ⟨S400000x1, .i32⟩
  | .hbm, ⟨49, _⟩ => ⟨S400000x1, .i1⟩
  | .hbm, ⟨50, _⟩ => ⟨S400000x1, .i1⟩
  | .hbm, ⟨51, _⟩ => ⟨S_, .i1⟩
  | .hbm, ⟨52, _⟩ => ⟨S400000, .i1⟩
  | .hbm, ⟨53, _⟩ => ⟨S400000x128, .f32⟩
  | .hbm, ⟨54, _⟩ => ⟨S400000x128, .i1⟩
  | .hbm, ⟨55, _⟩ => ⟨S_, .f32⟩
  | .hbm, ⟨56, _⟩ => ⟨S400000x128, .f32⟩
  | .hbm, ⟨57, _⟩ => ⟨S400000x128, .f32⟩
  | .hbm, ⟨58, _⟩ => ⟨S400000x1, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x256, .f32⟩
  | .hbm, ⟨68, _⟩ => ⟨S128x256, .bf16⟩
  | .hbm, ⟨69, _⟩ => ⟨S128x128, .f32⟩
  | .hbm, ⟨70, _⟩ => ⟨S128x128, .f32⟩
  | .hbm, ⟨71, _⟩ => ⟨S128x256, .f32⟩
  | .hbm, ⟨72, _⟩ => ⟨S128x256, .bf16⟩
  | .hbm, ⟨73, _⟩ => ⟨S128x128, .f32⟩
  | .hbm, ⟨74, _⟩ => ⟨S128x128, .f32⟩
  | .hbm, ⟨75, _⟩ => ⟨S128x256, .f32⟩
  | .hbm, ⟨76, _⟩ => ⟨S128x256, .bf16⟩
  | .hbm, ⟨77, _⟩ => ⟨S128x128, .f32⟩
  | .hbm, ⟨78, _⟩ => ⟨S128x128, .bf16⟩
  | .hbm, ⟨79, _⟩ => ⟨S26x128, .f32⟩
  | .hbm, ⟨80, _⟩ => ⟨S26x128, .f32⟩
  | .hbm, ⟨81, _⟩ => ⟨S26x256, .f32⟩
  | .hbm, ⟨82, _⟩ => ⟨S26x256, .bf16⟩
  | .hbm, ⟨83, _⟩ => ⟨S400000x128, .f32⟩
  | .hbm, ⟨84, _⟩ => ⟨S_, .i32⟩
  | .hbm, ⟨85, _⟩ => ⟨S400000, .i32⟩
  | .hbm, ⟨86, _⟩ => ⟨S400000, .i1⟩
  | .hbm, ⟨87, _⟩ => ⟨S_, .i32⟩
  | .hbm, ⟨88, _⟩ => ⟨S400000, .i32⟩
  | .hbm, ⟨89, _⟩ => ⟨S400000, .i32⟩
  | .hbm, ⟨90, _⟩ => ⟨S400000, .i32⟩
  | .hbm, ⟨91, _⟩ => ⟨S400000x1, .i32⟩
  | .hbm, ⟨92, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x26, .f32⟩
  | .local _ .vmem, ⟨9, _⟩ => ⟨S2000x26, .f32⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x128, .bf16⟩
  | .local _ .vmem, ⟨14, _⟩ => ⟨S26x256, .bf16⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_c : Ref sig .tc := ⟨.hbm, 84, rfl⟩
abbrev main_v28 : Ref sig .tc := ⟨.hbm, 85, rfl⟩
abbrev main_v29 : Ref sig .tc := ⟨.hbm, 86, rfl⟩
abbrev main_c_0 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x26 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S26x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S128x384_S128x128_0_0 : S128x384.Slices ![0, 0] S128x128
  slices_S128x384_S128x128_0_128 : S128x384.Slices ![0, 128] S128x128
  slices_S128x384_S128x128_0_256 : S128x384.Slices ![0, 256] S128x128
  transposes_S128x128_S128x128_1_0 : S128x128.Transposes [1, 0] S128x128
  concatenates_S128x128_S128x128_S128x256_d1 : Shape.Concatenates [S128x128, S128x128] S128x256 1
  bitsLt_bf16_f32 : FTy.bits .bf16 < FTy.bits .f32
  transposes_S128x26_S26x128_1_0 : S128x26.Transposes [1, 0] S26x128
  concatenates_S26x128_S26x128_S26x256_d1 : Shape.Concatenates [S26x128, S26x128] S26x256 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2000x256_o0_0_S2000x128 : S2000x256.Slices ![0, 0] S2000x128
  slices_S2000x256_o0_128_S2000x128 : S2000x256.Slices ![0, 128] S2000x128
  inb_S2000x26_S2000x26_0_0 : ∀ a, (![0, 0] : Fin 2 → Nat) a + S2000x26.size a ≤ S2000x26.size a
  h_S2000x26 : 0 < S2000x26.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S26x256_S26x256_0_0 : ∀ a, (![0, 0] : Fin 2 → Nat) a + S26x256.size a ≤ S26x256.size a
  h_S26x256 : 0 < S26x256.numel
  shapeCasts_S26x256_S26x256 : S26x256.ShapeCasts S26x256
  gather_S50000x128_S400000x1_S400000x128_1_0_n_n_0_1_1128_wf : GatherDims.WF S50000x128 S400000x1 S400000x128 [1] [0] [] [0] [] 1 ![1, 128]
  dot_S2000x128_S128x256_S2000x256_1_0_0_1_n_n_wf : DotDims.WF S2000x128 S128x256 S2000x256 [1] [0] [0] [1] [] []
  dot_S2000x128_S128x128_S2000x128_1_0_0_1_n_n_wf : DotDims.WF S2000x128 S128x128 S2000x128 [1] [0] [0] [1] [] []
  dot_S2000x26_S26x256_S2000x256_1_0_0_1_n_n_wf : DotDims.WF S2000x26 S26x256 S2000x256 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .f32 = 32 ∨ (Rect.block (s := S400000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S400000x1.size a
  hwx0_2 : ∀ i : grid0.Coords, EltTy.bits .f32 = 32 ∨ (Rect.block (s := S400000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S400000x128.size a
  hwx0_3 : ∀ i : grid0.Coords, EltTy.bits .f32 = 32 ∨ (Rect.block (s := S400000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x26.size a ≤ S400000x26.size a
  hwx0_4 : ∀ i : grid0.Coords, EltTy.bits .f32 = 32 ∨ (Rect.block (s := S400000x26) S2000x26.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S26x256.size a ≤ S26x256.size a
  hwx0_9 : ∀ i : grid0.Coords, EltTy.bits .bf16 = 32 ∨ (Rect.block (s := S26x256) S26x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S400000x128.size a
  hwx0_10 : ∀ i : grid0.Coords, EltTy.bits .f32 = 32 ∨ (Rect.block (s := S400000x128) S2000x128.size (cc0_transform_10 i) (hinb0_10 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x26_S26x256_S2000x256_1_0_0_1_n_n : DotDims S2000x26 S26x256 S2000x256 where
  lhsContracting := [1]
  rhsContracting := [0]
  lhsNonContracting := [0]
  rhsNonContracting := [1]
  lhsBatch := []
  rhsBatch := []
  wf := dot_S2000x26_S26x256_S2000x256_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2000x26.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S26x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000 : Shape := ⟨1, ![50000]⟩
abbrev S400000 : Shape := ⟨1, ![400000]⟩
abbrev S400000x128 : Shape := ⟨2, ![400000, 128]⟩
abbrev S400000x26 : Shape := ⟨2, ![400000, 26]⟩
abbrev S128x128 : Shape := ⟨2, ![128, 128]⟩
abbrev S128x26 : Shape := ⟨2, ![128, 26]⟩
abbrev S128x384 : Shape := ⟨2, ![128, 384]⟩
abbrev S_ : Shape := ⟨0, ![]⟩
abbrev S400000x1 : Shape := ⟨2, ![400000, 1]⟩
abbrev S400000x384 : Shape := ⟨2, ![400000, 384]⟩
abbrev S384x128 : Shape := ⟨2, ![384, 128]⟩
abbrev S26x128 : Shape := ⟨2, ![26, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S400000, .i32⟩
  | .hbm, ⟨3, _⟩ => ⟨S400000, .i32⟩
  | .hbm, ⟨4, _⟩ => ⟨S400000, .f32⟩
  | .hbm, ⟨5, _⟩ => ⟨S400000x128, .f32⟩
  | .hbm, ⟨6, _⟩ => ⟨S400000x26, .f32⟩
  | .hbm, ⟨7, _⟩ => ⟨S128x128, .f32⟩
  | .hbm, ⟨8, _⟩ => ⟨S128x26, .f32⟩
  | .hbm, ⟨9, _⟩ => ⟨S128x26, .f32⟩
  | .hbm, ⟨10, _⟩ => ⟨S128x384, .f32⟩
  | .hbm, ⟨11, _⟩ => ⟨S128x384, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .f32⟩
  | .hbm, ⟨30, _⟩ => ⟨S400000x128, .f32⟩
  | .hbm, ⟨31, _⟩ => ⟨S400000x1, .f32⟩
  | .hbm, ⟨32, _⟩ => ⟨S400000x128, .f32⟩
  | .hbm, ⟨33, _⟩ => ⟨S400000x128, .f32⟩
  | .hbm, ⟨34, _⟩ => ⟨S400000x384, .f32⟩
  | .hbm, ⟨35, _⟩ => ⟨S384x128, .f32⟩
  | .hbm, ⟨36, _⟩ => ⟨S400000x128, .f32⟩
  | .hbm, ⟨37, _⟩ => ⟨S400000x128, .f32⟩
  | .hbm, ⟨38, _⟩ => ⟨S400000x128, .f32⟩
  | .hbm, ⟨39, _⟩ => ⟨S_, .f32⟩
  | .hbm, ⟨40, _⟩ => ⟨S400000x128, .f32⟩
  | .hbm, ⟨41, _⟩ => ⟨S400000x128, .f32⟩
  | .hbm, ⟨42, _⟩ => ⟨S_, .f32⟩
  | .hbm, ⟨43, _⟩ => ⟨S400000x128, .f32⟩
  | .hbm, ⟨44, _⟩ => ⟨S400000x128, .f32⟩
  | .hbm, ⟨45, _⟩ => ⟨S384x128, .f32⟩
  | .hbm, ⟨46, _⟩ => ⟨S400000x128, .f32⟩
  | .hbm, ⟨47, _⟩ => ⟨S_, .f32⟩
  | .hbm, ⟨48, _⟩ => ⟨S400000x128, .f32⟩
  | .hbm, ⟨49, _⟩ => ⟨S400000x128, .i1⟩
  | .hbm, ⟨50, _⟩ => ⟨S_, .f32⟩
  | .hbm, ⟨51, _⟩ => ⟨S400000x128, .f32⟩
  | .hbm, ⟨52, _⟩ => ⟨S400000x128, .i1⟩
  | .hbm, ⟨53, _⟩ => ⟨S_, .f32⟩
  | .hbm, ⟨54, _⟩ => ⟨S_, .f32⟩
  | .hbm, ⟨55, _⟩ => ⟨S400000x128, .f32⟩
  | .hbm, ⟨56, _⟩ => ⟨S400000x128, .f32⟩
  | .hbm, ⟨57, _⟩ => ⟨S400000x128, .f32⟩
  | .hbm, ⟨58, _⟩ => ⟨S_, .f32⟩
  | .hbm, ⟨59, _⟩ => ⟨S400000x128, .f32⟩
  | .hbm, ⟨60, _⟩ => ⟨S400000x128, .f32⟩
  | .hbm, ⟨61, _⟩ => ⟨S400000x128, .f32⟩
  | .hbm, ⟨62, _⟩ => ⟨S128x128, .f32⟩
  | .hbm, ⟨63, _⟩ => ⟨S400000x128, .f32⟩
  | .hbm, ⟨64, _⟩ => ⟨S26x128, .f32⟩
  | .hbm, ⟨65, _⟩ => ⟨S400000x128, .f32⟩
  | .hbm, ⟨66, _⟩ => ⟨S26x128, .f32⟩
  | .hbm, ⟨67, _⟩ => ⟨S400000x128, .f32⟩
  | .hbm, ⟨68, _⟩ => ⟨S400000x128, .f32⟩
  | .hbm, ⟨69, _⟩ => ⟨S400000x128, .f32⟩
  | .hbm, ⟨70, _⟩ => ⟨S_, .f32⟩
  | .hbm, ⟨71, _⟩ => ⟨S400000x128, .f32⟩
  | .hbm, ⟨72, _⟩ => ⟨S400000x128, .f32⟩
  | .hbm, ⟨73, _⟩ => ⟨S_, .f32⟩
  | .hbm, ⟨74, _⟩ => ⟨S400000x128, .f32⟩
  | .hbm, ⟨75, _⟩ => ⟨S400000x128, .f32⟩
  | .hbm, ⟨76, _⟩ => ⟨S400000x128, .f32⟩
  | .hbm, ⟨77, _⟩ => ⟨S400000x128, .f32⟩
  | .hbm, ⟨78, _⟩ => ⟨S400000x128, .f32⟩
  | .hbm, ⟨79, _⟩ => ⟨S400000x128, .f32⟩
  | .hbm, ⟨80, _⟩ => ⟨S_, .i32⟩
  | .hbm, ⟨81, _⟩ => ⟨S400000, .i32⟩
  | .hbm, ⟨82, _⟩ => ⟨S400000, .i1⟩
  | .hbm, ⟨83, _⟩ => ⟨S_, .i32⟩
  | .hbm, ⟨84, _⟩ => ⟨S400000, .i32⟩
  | .hbm, ⟨85, _⟩ => ⟨S400000, .i32⟩
  | .hbm, ⟨86, _⟩ => ⟨S400000, .i32⟩
  | .hbm, ⟨87, _⟩ => ⟨S400000x1, .i32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_cst_1 : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_v4 : Ref sig .tc := ⟨.hbm, 56, rfl⟩
abbrev main_call0_v5 : Ref sig .tc := ⟨.hbm, 57, rfl⟩
abbrev main_call0_cst_2 : Ref sig .tc := ⟨.hbm, 58, rfl⟩
abbrev main_call0_v6 : Ref sig .tc := ⟨.hbm, 59, rfl⟩
abbrev main_call0_v7 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_cst_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_6 : Ref sig .tc := ⟨.hbm, 80, rfl⟩
abbrev main_v46 : Ref sig .tc := ⟨.hbm, 81, rfl⟩
abbrev main_v47 : Ref sig .tc := ⟨.hbm, 82, rfl⟩
abbrev main_c_7 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  concatenates_S400000x128_S400000x128_S400000x128_S400000x384_d1 : Shape.Concatenates [S400000x128, S400000x128, S400000x128] S400000x384 1
  transposes_S128x384_S384x128_1_0 : S128x384.Transposes [1, 0] S384x128
  bcast_S_S400000x128 : S_.BroadcastsInDim S400000x128 (![] : Fin 0 → Fin S400000x128.rank)
  transposes_S128x128_S128x128_1_0 : S128x128.Transposes [1, 0] S128x128
  transposes_S128x26_S26x128_1_0 : S128x26.Transposes [1, 0] S26x128
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  dot_S400000x26_S26x128_S400000x128_1_0_0_1_n_n_wf : DotDims.WF S400000x26 S26x128 S400000x128 [1] [0] [0] [1] [] []
  scatter_S50000x128_S400000x1_S400000x128_1_0_0_1_wf : ScatterDims.WF S50000x128 S400000x1 S400000x128 [1] [0] [0] 1

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x26_S26x128_S400000x128_1_0_0_1_n_n : DotDims S400000x26 S26x128 S400000x128 where
  lhsContracting := [1]
  rhsContracting := [0]
  lhsNonContracting := [0]
  rhsNonContracting := [1]
  lhsBatch := []
  rhsBatch := []
  wf := dot_S400000x26_S26x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.KerTerm.lean ====
/-
  The host values the fused program computes before its one region, as functions of the inputs: the index column NumPy's
  rules make of an index vector, the bounds test of a filling row-gather over it, and the gathered rows.
-/
import proofs.«426576_j80547816669790_3_alg».proof.Proof.Gen.KernelIdeal
import Idealize.ShloMosaic.PureOps.Ideal

noncomputable section

namespace Cert.KernelIdeal.KerTerm

open Cert.KernelIdeal Idealize.ShloMosaic Idealize.SL.Sem
open Cert.KernelIdeal.Facts₀ Cert.KernelIdeal.Facts

/-- An index vector with its negative entries counted from the end of the 50000 rows. -/
def idxVec (a : IVec S400000 32) : IVec S400000 32 :=
  select (cmpi .slt a (broadcastInDim S400000 ![] bcast_S_S400000 (constantI S_ 32 0#32)))
    (addi a (broadcastInDim S400000 ![] bcast_S_S400000 (constantI S_ 32 50000#32))) a

/-- The same as a column of start indices. -/
def idxCol (a : IVec S400000 32) : IVec S400000x1 32 :=
  broadcastInDim S400000x1 ![0] bcast_S400000_S400000x1_0 (idxVec a)

/-- The bounds test of the filling gather: entry by entry, `0 ≤ index ≤ 49999`. -/
def takeMask (a : IVec S400000 32) : IVec S400000x1 1 :=
  andi (cmpi .sge (idxCol a) (broadcastInDim S400000x1 ![] bcast_S_S400000x1 (constantI S_ 32 0#32)))
    (cmpi .sle (idxCol a) (broadcastInDim S400000x1 ![0, 1] bcast_S1x1_S400000x1_0_1
      (broadcastInDim S1x1 ![1] bcast_S1_S1x1_1 (constantI S1 32 49999#32))))

variable {F : FTy → Type} [FloatOps F]

/-- The rows of `x` the index vector names (the plain gather). -/
def rows (x : FVec F S50000x128 .f32) (a : IVec S400000 32) : FVec F S400000x128 .f32 :=
  Host.gather gather_S50000x128_S400000x1_S400000x128_1_0_n_n_0_1_1128 x (idxCol a)

/-- The filling gather: the gathered row where the bounds test passes, a fixed fill pattern elsewhere. -/
def takeFill (x : FVec F S50000x128 .f32) (a : IVec S400000 32) : FVec F S400000x128 .f32 :=
  select (broadcastInDim S400000x128 ![0] bcast_S400000_S400000x128_0
      (Host.reduce IntOp.andi (takeMask a) (constantI S_ 1 1#1) reducesTo_S400000x1_S400000_d1 h_S_))
    (rows x a) (broadcastInDim S400000x128 ![] bcast_S_S400000x128 (constant S_ .f32 0x7FC00000#32))

/-! The inputs as launched, each at its array type. -/

variable (m : (ℓ : Loc nD τ sig) → Buf (Elt F) ℓ) (c : Dev nD)

abbrev in0 : FVec F S50000x128 .f32 := m ((c.tc : Thread nD τ).loc main_arg0)
abbrev in2 : IVec S400000 32 := m ((c.tc : Thread nD τ).loc main_arg2)
abbrev in3 : IVec S400000 32 := m ((c.tc : Thread nD τ).loc main_arg3)
abbrev in4 : FVec F S400000 .f32 := m ((c.tc : Thread nD τ).loc main_arg4)
abbrev in5 : FVec F S400000x128 .f32 := m ((c.tc : Thread nD τ).loc main_arg5)
abbrev in6 : FVec F S400000x26 .f32 := m ((c.tc : Thread nD τ).loc main_arg6)
abbrev in7 : FVec F S128x128 .f32 := m ((c.tc : Thread nD τ).loc main_arg7)
abbrev in8 : FVec F S128x26 .f32 := m ((c.tc : Thread nD τ).loc main_arg8)
abbrev in9 : FVec F S128x26 .f32 := m ((c.tc : Thread nD τ).loc main_arg9)
abbrev in10 : FVec F S128x384 .f32 := m ((c.tc : Thread nD τ).loc main_arg10)
abbrev in11 : FVec F S128x384 .f32 := m ((c.tc : Thread nD τ).loc main_arg11)

end Cert.KernelIdeal.KerTerm

end
-- ==== Proof.Tail.lean ====
/-
  The fused program's last host lines: the result is the node features with the region's array of messages added onto
  the rows the (normalised) source indices name.
-/
import proofs.«426576_j80547816669790_3_alg».proof.Proof.Gen.KernelIdeal.Frame
import proofs.«426576_j80547816669790_3_alg».proof.Proof.KerTerm
import Idealize.ShloMosaic.Lib.StableHlo.Run

noncomputable section

namespace Cert.KernelIdeal.Tail

open Cert.KernelIdeal Cert.KernelIdeal.Gen Cert.KernelIdeal.KerTerm Idealize.ShloMosaic Idealize.ShloMosaic.TcCoe
  Idealize.SL.Sem

variable (m : (ℓ : Loc nD τ sig) → Buf (Elt Ideal) ℓ)

/-- The last host lines as a function: the features `x` with the messages `u` added onto the rows the index vector names. -/
def tailFn (x : FVec Ideal S50000x128 .f32) (a : IVec S400000 32) (u : FVec Ideal S400000x128 .f32) :
    FVec Ideal S50000x128 .f32 :=
  Host.scatterAdd scatter_S50000x128_S400000x1_S400000x128_1_0_0_1 x (idxCol a) u

/-- The host lines after the region, over any contents of the buffers they read. -/
theorem tail_of (W : Valuation τ sig (Elt Ideal)) :
    StableHlo.after (hostOps1 (F := Ideal)) W (Proc.devRef .tc main_v34)
      = tailFn (W (Proc.devRef .tc main_arg0)) (W (Proc.devRef .tc main_arg2)) (W (Proc.devRef .tc main_v27)) := by
  after_results
  rfl

theorem flat1 : [hostOps1 (F := Ideal)].flatten = hostOps1 := by
  simp only [List.flatten_cons, List.flatten_nil, List.append_nil]

theorem tail_eq (c : Dev nD) :
    (Pipeline.afterTail₀ cfgs (dats m) 0 (V0 m) [hostOps1] c main_v34 : FVec Ideal S50000x128 .f32)
      = tailFn (in0 m c) (in2 m c) ((dats m 0 c).arrAt 10 cfg0.N) := by
  unfold Pipeline.afterTail₀
  rw [flat1, tail_of]
  rw [Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_arr spec0 launch0.win.arr_inj c _ _ 10]
  exact congrArg₂ (fun x a => tailFn x a ((dats m 0 c).arrAt 10 cfg0.N)) (V_main_arg0 m c) (V_main_arg2 m c)

end Cert.KernelIdeal.Tail

end
-- ==== Proof.Blocks.lean ====
/-
  The fused kernel's windows, block by block: at grid point `t` each of the five edge windows and the output window is
  on rows `2000 t … 2000 t + 1999` of its array, all columns; each of the five weight windows is on its whole array.
  So a block read at row `r` is the array read at row `2000 t + r`.
-/
import proofs.«426576_j80547816669790_3_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-- The region-entry contents of the pipeline's ten input arrays, each at its array type. -/
abbrev A0 (c : Dev nD) : FVec Ideal S400000x128 .f32 := V m c main_v0
abbrev A1 (c : Dev nD) : FVec Ideal S400000x128 .f32 := V m c main_v1
abbrev A2 (c : Dev nD) : FVec Ideal S400000x1 .f32 := V m c main_v2
abbrev A3 (c : Dev nD) : FVec Ideal S400000x128 .f32 := V m c main_arg5
abbrev A4 (c : Dev nD) : FVec Ideal S400000x26 .f32 := V m c main_arg6
abbrev A5 (c : Dev nD) : FVec Ideal S128x256 .bf16 := V m c main_v12
abbrev A6 (c : Dev nD) : FVec Ideal S128x256 .bf16 := V m c main_v16
abbrev A7 (c : Dev nD) : FVec Ideal S128x256 .bf16 := V m c main_v20
abbrev A8 (c : Dev nD) : FVec Ideal S128x128 .bf16 := V m c main_v22
abbrev A9 (c : Dev nD) : FVec Ideal S26x256 .bf16 := V m c main_v26

/-- A grid point's number is below 200. -/
theorem t_lt (t : Fin cfg0.N) : t.val < 200 := lt_of_lt_of_eq t.isLt N_0

/-- The printed index maps, decided over the grid: the six row-tiled windows are at block row `t`, block column 0; the
    five weight windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_10.index t (0 : Fin 2) = t.val ∧ win0_10.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

end Cert.KernelIdeal.Blocks

end
-- ==== Proof.BlockReads.lean ====
/-
  A block of a window read at an entry is the window's array read at the entry the block's position names: row
  `2000 t + r` for the row-tiled windows, the same entry for the weight windows.
-/
import proofs.«426576_j80547816669790_3_alg».proof.Proof.Blocks

noncomputable section

namespace Cert.KernelIdeal.Blocks

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-- Window 0: block `t` of any array of its shape, read at `(r, k)`, is the array at `(2000 t + r, k)`. -/
theorem read0 (t : Fin cfg0.N) (X : FVec Ideal S400000x128 .f32) (r : Fin 2000) (k : Fin 128) :
    (((cfg0.win 0).blk t).view.read (Elt Ideal) X : Vec Ideal S2000x128 .f32) (ix2 r k)
      = X (ix2 ⟨2000 * t.val + r.val, by have := t_lt t; omega⟩ k) := by
  obtain ⟨⟨h0, h1⟩, -⟩ := idx_facts t
  rw [View.read_apply]
  show X _ = X _
  refine congrArg X (funext fun a => ?_)
  apply Fin.ext
  match a with
  | ⟨0, _⟩ => show win0_0.index t 0 * 2000 + 1 * r.val = 2000 * t.val + r.val; rw [h0]; omega
  | ⟨1, _⟩ => show win0_0.index t 1 * 128 + 1 * k.val = k.val; rw [h1]; omega

/-- So the window's block of the region-entry array. -/
theorem iblk0_apply (c : Dev nD) (t : Fin cfg0.N) (r : Fin 2000) (k : Fin 128) :
    (iblk m c 0 t : Vec Ideal S2000x128 .f32) (ix2 r k)
      = A0 m c (ix2 ⟨2000 * t.val + r.val, by have := t_lt t; omega⟩ k) := by
  unfold iblk
  exact read0 t (V m c (Pipeline.arrRef spec0 0)) r k

/-- Window 1: block `t` of any array of its shape, read at `(r, k)`, is the array at `(2000 t + r, k)`. -/
theorem read1 (t : Fin cfg0.N) (X : FVec Ideal S400000x128 .f32) (r : Fin 2000) (k : Fin 128) :
    (((cfg0.win 1).blk t).view.read (Elt Ideal) X : Vec Ideal S2000x128 .f32) (ix2 r k)
      = X (ix2 ⟨2000 * t.val + r.val, by have := t_lt t; omega⟩ k) := by
  obtain ⟨-, ⟨h0, h1⟩, -⟩ := idx_facts t
  rw [View.read_apply]
  show X _ = X _
  refine congrArg X (funext fun a => ?_)
  apply Fin.ext
  match a with
  | ⟨0, _⟩ => show win0_1.index t 0 * 2000 + 1 * r.val = 2000 * t.val + r.val; rw [h0]; omega
  | ⟨1, _⟩ => show win0_1.index t 1 * 128 + 1 * k.val = k.val; rw [h1]; omega

/-- So the window's block of the region-entry array. -/
theorem iblk1_apply (c : Dev nD) (t : Fin cfg0.N) (r : Fin 2000) (k : Fin 128) :
    (iblk m c 1 t : Vec Ideal S2000x128 .f32) (ix2 r k)
      = A1 m c (ix2 ⟨2000 * t.val + r.val, by have := t_lt t; omega⟩ k) := by
  unfold iblk
  exact read1 t (V m c (Pipeline.arrRef spec0 1)) r k

/-- Window 2 (a column): block `t` of any array of its shape, read at `(r, 0)`, is the array at `(2000 t + r, 0)`. -/
theorem read2 (t : Fin cfg0.N) (X : FVec Ideal S400000x1 .f32) (r : Fin 2000) :
    (((cfg0.win 2).blk t).view.read (Elt Ideal) X : Vec Ideal S2000x1 .f32) (ix2 r 0)
      = X (ix2 ⟨2000 * t.val + r.val, by have := t_lt t; omega⟩ 0) := by
  obtain ⟨-, -, ⟨h0, h1⟩, -⟩ := idx_facts t
  rw [View.read_apply]
  show X _ = X _
  refine congrArg X (funext fun a => ?_)
  apply Fin.ext
  match a with
  | ⟨0, _⟩ => show win0_2.index t 0 * 2000 + 1 * r.val = 2000 * t.val + r.val; rw [h0]; omega
  | ⟨1, _⟩ => show win0_2.index t 1 * 1 + 1 * 0 = 0; rw [h1]

theorem iblk2_apply (c : Dev nD) (t : Fin cfg0.N) (r : Fin 2000) :
    (iblk m c 2 t : Vec Ideal S2000x1 .f32) (ix2 r 0)
      = A2 m c (ix2 ⟨2000 * t.val + r.val, by have := t_lt t; omega⟩ 0) := by
  unfold iblk
  exact read2 t (V m c (Pipeline.arrRef spec0 2)) r

/-- Window 3: block `t` of any array of its shape, read at `(r, k)`, is the array at `(2000 t + r, k)`. -/
theorem read3 (t : Fin cfg0.N) (X : FVec Ideal S400000x128 .f32) (r : Fin 2000) (k : Fin 128) :
    (((cfg0.win 3).blk t).view.read (Elt Ideal) X : Vec Ideal S2000x128 .f32) (ix2 r k)
      = X (ix2 ⟨2000 * t.val + r.val, by have := t_lt t; omega⟩ k) := by
  obtain ⟨-, -, -, ⟨h0, h1⟩, -⟩ := idx_facts t
  rw [View.read_apply]
  show X _ = X _
  refine congrArg X (funext fun a => ?_)
  apply Fin.ext
  match a with
  | ⟨0, _⟩ => show win0_3.index t 0 * 2000 + 1 * r.val = 2000 * t.val + r.val; rw [h0]; omega
  | ⟨1, _⟩ => show win0_3.index t 1 * 128 + 1 * k.val = k.val; rw [h1]; omega

/-- So the window's block of the region-entry array. -/
theorem iblk3_apply (c : Dev nD) (t : Fin cfg0.N) (r : Fin 2000) (k : Fin 128) :
    (iblk m c 3 t : Vec Ideal S2000x128 .f32) (ix2 r k)
      = A3 m c (ix2 ⟨2000 * t.val + r.val, by have := t_lt t; omega⟩ k) := by
  unfold iblk
  exact read3 t (V m c (Pipeline.arrRef spec0 3)) r k

/-- Window 4: block `t` of any array of its shape, read at `(r, k)`, is the array at `(2000 t + r, k)`. -/
theorem read4 (t : Fin cfg0.N) (X : FVec Ideal S400000x26 .f32) (r : Fin 2000) (k : Fin 26) :
    (((cfg0.win 4).blk t).view.read (Elt Ideal) X : Vec Ideal S2000x26 .f32) (ix2 r k)
      = X (ix2 ⟨2000 * t.val + r.val, by have := t_lt t; omega⟩ k) := by
  obtain ⟨-, -, -, -, ⟨h0, h1⟩, -⟩ := idx_facts t
  rw [View.read_apply]
  show X _ = X _
  refine congrArg X (funext fun a => ?_)
  apply Fin.ext
  match a with
  | ⟨0, _⟩ => show win0_4.index t 0 * 2000 + 1 * r.val = 2000 * t.val + r.val; rw [h0]; omega
  | ⟨1, _⟩ => show win0_4.index t 1 * 26 + 1 * k.val = k.val; rw [h1]; omega

/-- So the window's block of the region-entry array. -/
theorem iblk4_apply (c : Dev nD) (t : Fin cfg0.N) (r : Fin 2000) (k : Fin 26) :
    (iblk m c 4 t : Vec Ideal S2000x26 .f32) (ix2 r k)
      = A4 m c (ix2 ⟨2000 * t.val + r.val, by have := t_lt t; omega⟩ k) := by
  unfold iblk
  exact read4 t (V m c (Pipeline.arrRef spec0 4)) r k

/-- Window 5: its block at every point is the whole array. -/
theorem read5 (t : Fin cfg0.N) (X : FVec Ideal S128x256 .bf16) (k : Fin 128) (j : Fin 256) :
    (((cfg0.win 5).blk t).view.read (Elt Ideal) X : Vec Ideal S128x256 .bf16) (ix2 k j) = X (ix2 k j) := by
  obtain ⟨-, -, -, -, -, -, ⟨h0, h1⟩, -⟩ := idx_facts t
  rw [View.read_apply]
  show X _ = X _
  refine congrArg X (funext fun a => ?_)
  apply Fin.ext
  match a with
  | ⟨0, _⟩ => show win0_5.index t 0 * 128 + 1 * k.val = k.val; rw [h0]; omega
  | ⟨1, _⟩ => show win0_5.index t 1 * 256 + 1 * j.val = j.val; rw [h1]; omega

theorem iblk5_apply (c : Dev nD) (t : Fin cfg0.N) (k : Fin 128) (j : Fin 256) :
    (iblk m c 5 t : Vec Ideal S128x256 .bf16) (ix2 k j) = A5 m c (ix2 k j) := by
  unfold iblk
  exact read5 t (V m c (Pipeline.arrRef spec0 5)) k j

/-- Window 6: its block at every point is the whole array. -/
theorem read6 (t : Fin cfg0.N) (X : FVec Ideal S128x256 .bf16) (k : Fin 128) (j : Fin 256) :
    (((cfg0.win 6).blk t).view.read (Elt Ideal) X : Vec Ideal S128x256 .bf16) (ix2 k j) = X (ix2 k j) := by
  obtain ⟨-, -, -, -, -, -, -, ⟨h0, h1⟩, -⟩ := idx_facts t
  rw [View.read_apply]
  show X _ = X _
  refine congrArg X (funext fun a => ?_)
  apply Fin.ext
  match a with
  | ⟨0, _⟩ => show win0_6.index t 0 * 128 + 1 * k.val = k.val; rw [h0]; omega
  | ⟨1, _⟩ => show win0_6.index t 1 * 256 + 1 * j.val = j.val; rw [h1]; omega

theorem iblk6_apply (c : Dev nD) (t : Fin cfg0.N) (k : Fin 128) (j : Fin 256) :
    (iblk m c 6 t : Vec Ideal S128x256 .bf16) (ix2 k j) = A6 m c (ix2 k j) := by
  unfold iblk
  exact read6 t (V m c (Pipeline.arrRef spec0 6)) k j

/-- Window 7: its block at every point is the whole array. -/
theorem read7 (t : Fin cfg0.N) (X : FVec Ideal S128x256 .bf16) (k : Fin 128) (j : Fin 256) :
    (((cfg0.win 7).blk t).view.read (Elt Ideal) X : Vec Ideal S128x256 .bf16) (ix2 k j) = X (ix2 k j) := by
  obtain ⟨-, -, -, -, -, -, -, -, ⟨h0, h1⟩, -⟩ := idx_facts t
  rw [View.read_apply]
  show X _ = X _
  refine congrArg X (funext fun a => ?_)
  apply Fin.ext
  match a with
  | ⟨0, _⟩ => show win0_7.index t 0 * 128 + 1 * k.val = k.val; rw [h0]; omega
  | ⟨1, _⟩ => show win0_7.index t 1 * 256 + 1 * j.val = j.val; rw [h1]; omega

theorem iblk7_apply (c : Dev nD) (t : Fin cfg0.N) (k : Fin 128) (j : Fin 256) :
    (iblk m c 7 t : Vec Ideal S128x256 .bf16) (ix2 k j) = A7 m c (ix2 k j) := by
  unfold iblk
  exact read7 t (V m c (Pipeline.arrRef spec0 7)) k j

/-- Window 8: its block at every point is the whole array. -/
theorem read8 (t : Fin cfg0.N) (X : FVec Ideal S128x128 .bf16) (k : Fin 128) (j : Fin 128) :
    (((cfg0.win 8).blk t).view.read (Elt Ideal) X : Vec Ideal S128x128 .bf16) (ix2 k j) = X (ix2 k j) := by
  obtain ⟨-, -, -, -, -, -, -, -, -, ⟨h0, h1⟩, -⟩ := idx_facts t
  rw [View.read_apply]
  show X _ = X _
  refine congrArg X (funext fun a => ?_)
  apply Fin.ext
  match a with
  | ⟨0, _⟩ => show win0_8.index t 0 * 128 + 1 * k.val = k.val; rw [h0]; omega
  | ⟨1, _⟩ => show win0_8.index t 1 * 128 + 1 * j.val = j.val; rw [h1]; omega

theorem iblk8_apply (c : Dev nD) (t : Fin cfg0.N) (k : Fin 128) (j : Fin 128) :
    (iblk m c 8 t : Vec Ideal S128x128 .bf16) (ix2 k j) = A8 m c (ix2 k j) := by
  unfold iblk
  exact read8 t (V m c (Pipeline.arrRef spec0 8)) k j

/-- Window 9: its block at every point is the whole array. -/
theorem read9 (t : Fin cfg0.N) (X : FVec Ideal S26x256 .bf16) (k : Fin 26) (j : Fin 256) :
    (((cfg0.win 9).blk t).view.read (Elt Ideal) X : Vec Ideal S26x256 .bf16) (ix2 k j) = X (ix2 k j) := by
  obtain ⟨-, -, -, -, -, -, -, -, -, -, h0, h1⟩ := idx_facts t
  rw [View.read_apply]
  show X _ = X _
  refine congrArg X (funext fun a => ?_)
  apply Fin.ext
  match a with
  | ⟨0, _⟩ => show win0_9.index t 0 * 26 + 1 * k.val = k.val; rw [h0]; omega
  | ⟨1, _⟩ => show win0_9.index t 1 * 256 + 1 * j.val = j.val; rw [h1]; omega

theorem iblk9_apply (c : Dev nD) (t : Fin cfg0.N) (k : Fin 26) (j : Fin 256) :
    (iblk m c 9 t : Vec Ideal S26x256 .bf16) (ix2 k j) = A9 m c (ix2 k j) := by
  unfold iblk
  exact read9 t (V m c (Pipeline.arrRef spec0 9)) k j

/-- The output window: entry `(r, cc)` of block `t` sits at `(2000 t + r, cc)` of the array. -/
theorem emb10 (t : Fin cfg0.N) (r : Fin 2000) (cc : Fin 128) :
    ((cfg0.win 10).blk t).view.emb (ix2 r cc)
      = (ix2 ⟨2000 * t.val + r.val, by have := t_lt t; omega⟩ cc : S400000x128.Idx) := by
  obtain ⟨-, -, -, -, -, ⟨h0, h1⟩, -⟩ := idx_facts t
  funext a
  apply Fin.ext
  match a with
  | ⟨0, _⟩ => show win0_10.index t 0 * 2000 + 1 * r.val = 2000 * t.val + r.val; rw [h0]; omega
  | ⟨1, _⟩ => show win0_10.index t 1 * 128 + 1 * cc.val = cc.val; rw [h1]; omega

end Cert.KernelIdeal.Blocks

end
-- ==== Proof.Spec.lean ====
/-
  The message an edge sends, as ONE function of whole arrays on the extended reals.

  For an edge `e` with source features `a = ni[e, ·]`, target features `b = nj[e, ·]`, length `ρ = rij[e]`, radial
  weights `s = combine_sets[e, ·]` and plane-wave weights `p = plane_wave[e, ·]`, output column `c`:
      G = Σ_k a k · gi k + Σ_k b k · gj k + Σ_k ((b k − a k) / ρ) · gd k          (the gate's logit)
      M = Σ_k a k · mi k + Σ_k b k · mj k + Σ_k ((b k − a k) / ρ) · md k          (the MLP's logit)
      z = (σ G · elu M) · (Σ_k s k · u1 k + (Σ_k p k · u2 k) · σ (Σ_k p k · u2g k))
  where `gi, gj, gd` are row `c` of the gate's weight matrix cut into its three blocks of 128 columns (those that meet the
  source's features, the target's and the scaled difference), `mi, mj, md` the same for the MLP's matrix, and
  `u1, u2, u2g` row `c` of the three small matrices. `σ` is the logistic function and `elu x = x` for `x > 0`,
  `exp x − 1` otherwise.
-/
import Idealize.ShloMosaic.PureOps.Ideal
import Idealize.ShloMosaic.Lib.ValueIdx

noncomputable section

open scoped BigOperators

namespace Cert.EdgeSpec

open Idealize.ShloMosaic Idealize.ShloMosaic.ValueIdx

/-- ELU on the extended reals: the identity above zero, `exp x − 1` at and below it (the argument of `exp` capped at zero,
    which changes nothing on that branch). -/
def elu (x : EReal) : EReal := if 0 < x then x else Ideal.exp (min x 0) - 1

/-- One entry of the message: see the head of this file. -/
def edgeRow (a b : Fin 128 → EReal) (ρ : EReal) (s : Fin 128 → EReal) (p : Fin 26 → EReal)
    (gi gj gd mi mj md u1 : Fin 128 → EReal) (u2 u2g : Fin 26 → EReal) : EReal :=
  (Ideal.logistic ((∑ k, a k * gi k + ∑ k, b k * gj k) + ∑ k, Ideal.div (b k - a k) ρ * gd k)
      * elu ((∑ k, a k * mi k + ∑ k, b k * mj k) + ∑ k, Ideal.div (b k - a k) ρ * md k))
    * (∑ k, s k * u1 k + (∑ k, p k * u2 k) * Ideal.logistic (∑ k, p k * u2g k))

/-- The message of edge `e` at column `c`, from the gathered feature rows and the inputs as given: the weight matrices are
    read by rows (`W[c, k]`), the two wide ones in their three blocks of 128 columns. -/
def zRow (ni nj : (⟨2, ![400000, 128]⟩ : Shape).Idx → EReal) (rij : (⟨1, ![400000]⟩ : Shape).Idx → EReal)
    (cs : (⟨2, ![400000, 128]⟩ : Shape).Idx → EReal) (pw : (⟨2, ![400000, 26]⟩ : Shape).Idx → EReal)
    (w1 : (⟨2, ![128, 128]⟩ : Shape).Idx → EReal) (w2 w2g : (⟨2, ![128, 26]⟩ : Shape).Idx → EReal)
    (wg wm : (⟨2, ![128, 384]⟩ : Shape).Idx → EReal) (e : Fin 400000) (c : Fin 128) : EReal :=
  edgeRow (fun k => ni (ix2 e k)) (fun k => nj (ix2 e k)) (rij (ix1 e)) (fun k => cs (ix2 e k)) (fun k => pw (ix2 e k))
    (fun k => wg (ix2 c ⟨k.val, by omega⟩)) (fun k => wg (ix2 c ⟨128 + k.val, by omega⟩)) (fun k => wg (ix2 c ⟨256 + k.val, by omega⟩))
    (fun k => wm (ix2 c ⟨k.val, by omega⟩)) (fun k => wm (ix2 c ⟨128 + k.val, by omega⟩)) (fun k => wm (ix2 c ⟨256 + k.val, by omega⟩))
    (fun k => w1 (ix2 c k)) (fun k => w2 (ix2 c k)) (fun k => w2g (ix2 c k))

/-- All messages, as an array of 400000 rows and 128 columns. -/
def zSpec (ni nj : (⟨2, ![400000, 128]⟩ : Shape).Idx → EReal) (rij : (⟨1, ![400000]⟩ : Shape).Idx → EReal)
    (cs : (⟨2, ![400000, 128]⟩ : Shape).Idx → EReal) (pw : (⟨2, ![400000, 26]⟩ : Shape).Idx → EReal)
    (w1 : (⟨2, ![128, 128]⟩ : Shape).Idx → EReal) (w2 w2g : (⟨2, ![128, 26]⟩ : Shape).Idx → EReal)
    (wg wm : (⟨2, ![128, 384]⟩ : Shape).Idx → EReal) : (⟨2, ![400000, 128]⟩ : Shape).Idx → EReal :=
  fun j => zRow ni nj rij cs pw w1 w2 w2g wg wm (j 0) (j 1)

theorem zSpec_apply (ni nj : (⟨2, ![400000, 128]⟩ : Shape).Idx → EReal) (rij : (⟨1, ![400000]⟩ : Shape).Idx → EReal)
    (cs : (⟨2, ![400000, 128]⟩ : Shape).Idx → EReal) (pw : (⟨2, ![400000, 26]⟩ : Shape).Idx → EReal)
    (w1 : (⟨2, ![128, 128]⟩ : Shape).Idx → EReal) (w2 w2g : (⟨2, ![128, 26]⟩ : Shape).Idx → EReal)
    (wg wm : (⟨2, ![128, 384]⟩ : Shape).Idx → EReal) (e : Fin 400000) (c : Fin 128) :
    zSpec ni nj rij cs pw w1 w2 w2g wg wm (ix2 e c) = zRow ni nj rij cs pw w1 w2 w2g wg wm e c := rfl

end Cert.EdgeSpec

end
-- ==== Proof.LibColumn.lean ====
/-
  Column forms of two layout operations read at an index, and one law of the extended reals' quotient.
  * a rank-1 array [a] cast to a column [a, 1] reads, at (i, u), the operand at i;
  * a column [a, 1] broadcast along its unit axis to [a, b] reads, at (p, c), the column's entry of row p;
  * a quotient by a divisor that is at least 1 is the product with the divisor's reciprocal, on every extended real:
    the divisor is not zero, so both sides are x · d⁻¹.
-/
import Idealize.ShloMosaic.Lib.Pipeline.Value
import Idealize.ShloMosaic.Lib.ValueIdx
import Idealize.ShloMosaic.Lib.ValueLayout
import Idealize.ShloMosaic.PureOps.Ideal

namespace Cert.LibColumn

open Idealize.ShloMosaic Idealize.ShloMosaic.ValueIdx

variable {α : Type}

/-- An `[a]` array cast to the column `[a, 1]` reads, at `(i, u)`, the operand at `i`, whatever the unit coordinate `u`:
    both positions have the row-major rank `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A quotient by `max y 1` is the product with its reciprocal, for every extended real `x` and `y`: the divisor is at
    least `1`, hence not `0`, and both sides are `x · (max y 1)⁻¹`. -/
theorem div_max_one (x y : EReal) : Ideal.div x (max y 1) = x * Ideal.div 1 (max y 1) := by
  have hne : max y 1 ≠ 0 := by
    intro h0
    have h1 : (1 : EReal) ≤ max y 1 := le_max_right _ _
    rw [h0] at h1
    exact absurd h1 (by norm_num)
  unfold Ideal.div
  rw [if_neg hne, if_neg hne, one_mul]

end Cert.LibColumn
-- ==== Proof.Payload.lean ====
/-
  The fused kernel's block of messages, read at an entry: row `r`, column `c` of what one grid point writes is the
  message `Cert.EdgeSpec.edgeRow` of row `r` of the point's five edge blocks against the columns `c` and `128 + c`
  of the merged weight blocks.
-/
import proofs.«426576_j80547816669790_3_alg».proof.Proof.Gen.KernelIdeal.Frame
import proofs.«426576_j80547816669790_3_alg».proof.Proof.Spec
import proofs.«426576_j80547816669790_3_alg».proof.Proof.LibColumn
import Idealize.ShloMosaic.PureOps.Ideal.Laws
import Mathlib.Tactic.NormNum
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ### The product of a [2000, 128] by a [128, 256] matrix, read at an entry -/

theorem lhs_wide_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl

theorem lhs_wide_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q

theorem rhs_wide_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q

theorem rhs_wide_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The matrix product into the zero accumulator is the sum over the contracted coordinate of the products of the entries. -/
theorem matmul_wide_apply {φ₁ φ₂ : FTy} (A : FVec Ideal S2000x128 φ₁) (B : FVec Ideal S128x256 φ₂) (r : Fin 2000) (j : Fin 256) :
    matmul dot_S2000x128_S128x256_S2000x256_1_0_0_1_n_n none A B (constant (F := Ideal) S2000x256 .f32 0x00000000#32) (ix2 r j)
      = ∑ k : Fin 128, A (ix2 r k) * B (ix2 k j) := by
  show FloatOps.matmul dot_S2000x128_S128x256_S2000x256_1_0_0_1_n_n none A B (constant (F := Ideal) S2000x256 .f32 0x00000000#32) (ix2 r j) = _
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k := funext fun a => Fin.ext (by
    match a with
    | ⟨0, _⟩ => exact lhs_wide_0 _ _
    | ⟨1, _⟩ => exact (lhs_wide_1 _ _).trans hk)
  have er : dot_S2000x128_S128x256_S2000x256_1_0_0_1_n_n.rhsIdx (ix2 r j) ((contrEquiv1 dot_S2000x128_S128x256_S2000x256_1_0_0_1_n_n 128 rfl rfl).symm k) = ix2 k j := funext fun a => Fin.ext (by
    match a with
    | ⟨0, _⟩ => exact (rhs_wide_0 _ _).trans hk
    | ⟨1, _⟩ => exact rhs_wide_1 _ _)
  rw [el, er]

/-! ### The product of a [2000, 128] by a [128, 128] matrix, read at an entry -/

theorem lhs_square_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem lhs_square_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_square_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_square_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product into the zero accumulator is the sum over the contracted coordinate of the products of the entries. -/
theorem matmul_square_apply {φ₁ φ₂ : FTy} (A : FVec Ideal S2000x128 φ₁) (B : FVec Ideal S128x128 φ₂) (r : Fin 2000) (j : Fin 128) :
    matmul dot_S2000x128_S128x128_S2000x128_1_0_0_1_n_n none A B (constant (F := Ideal) S2000x128 .f32 0x00000000#32) (ix2 r j)
      = ∑ k : Fin 128, A (ix2 r k) * B (ix2 k j) := by
  show FloatOps.matmul dot_S2000x128_S128x128_S2000x128_1_0_0_1_n_n none A B (constant (F := Ideal) S2000x128 .f32 0x00000000#32) (ix2 r j) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_square_0 _ _
    | ⟨1, _⟩ => exact (lhs_square_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_square_0 _ _).trans hk
    | ⟨1, _⟩ => exact rhs_square_1 _ _)
  rw [el, er]

/-! ### The product of a [2000, 26] by a [26, 256] matrix, read at an entry -/

theorem lhs_plane_0 (i : S2000x256.Idx) (q : dot_S2000x26_S26x256_S2000x256_1_0_0_1_n_n.contr.Idx) :
    (dot_S2000x26_S26x256_S2000x256_1_0_0_1_n_n.lhsIdx i q 0).val = (i 0).val := by
  unfold DotDims.lhsIdx
  rw [dif_neg (show ¬(0 : Fin S2000x26.rank) ∈ dot_S2000x26_S26x256_S2000x256_1_0_0_1_n_n.lhsBatch by decide), dif_pos (show (0 : Fin S2000x26.rank) ∈ dot_S2000x26_S26x256_S2000x256_1_0_0_1_n_n.lhsNonContracting by decide)]
  rfl

theorem lhs_plane_1 (i : S2000x256.Idx) (q : dot_S2000x26_S26x256_S2000x256_1_0_0_1_n_n.contr.Idx) :
    (dot_S2000x26_S26x256_S2000x256_1_0_0_1_n_n.lhsIdx i q 1).val = (q ⟨0, by decide⟩).val :=
  dot_S2000x26_S26x256_S2000x256_1_0_0_1_n_n.lhsIdx_val_of_single rfl i q

theorem rhs_plane_0 (i : S2000x256.Idx) (q : dot_S2000x26_S26x256_S2000x256_1_0_0_1_n_n.contr.Idx) :
    (dot_S2000x26_S26x256_S2000x256_1_0_0_1_n_n.rhsIdx i q 0).val = (q ⟨0, by decide⟩).val :=
  dot_S2000x26_S26x256_S2000x256_1_0_0_1_n_n.rhsIdx_val_of_single rfl i q

theorem rhs_plane_1 (i : S2000x256.Idx) (q : dot_S2000x26_S26x256_S2000x256_1_0_0_1_n_n.contr.Idx) :
    (dot_S2000x26_S26x256_S2000x256_1_0_0_1_n_n.rhsIdx i q 1).val = (i 1).val := by
  unfold DotDims.rhsIdx
  rw [dif_neg (show ¬(1 : Fin S26x256.rank) ∈ dot_S2000x26_S26x256_S2000x256_1_0_0_1_n_n.rhsBatch by decide), dif_pos (show (1 : Fin S26x256.rank) ∈ dot_S2000x26_S26x256_S2000x256_1_0_0_1_n_n.rhsNonContracting by decide)]
  rfl

/-- The matrix product into the zero accumulator is the sum over the contracted coordinate of the products of the entries. -/
theorem matmul_plane_apply {φ₁ φ₂ : FTy} (A : FVec Ideal S2000x26 φ₁) (B : FVec Ideal S26x256 φ₂) (r : Fin 2000) (j : Fin 256) :
    matmul dot_S2000x26_S26x256_S2000x256_1_0_0_1_n_n none A B (constant (F := Ideal) S2000x256 .f32 0x00000000#32) (ix2 r j)
      = ∑ k : Fin 26, A (ix2 r k) * B (ix2 k j) := by
  show FloatOps.matmul dot_S2000x26_S26x256_S2000x256_1_0_0_1_n_n none A B (constant (F := Ideal) S2000x256 .f32 0x00000000#32) (ix2 r j) = _
  rw [Ideal.matmul_constant_zero_apply, ← Equiv.sum_comp (contrEquiv1 dot_S2000x26_S26x256_S2000x256_1_0_0_1_n_n 26 rfl rfl).symm]
  refine Finset.sum_congr rfl fun k _ => ?_
  have hk := contrEquiv1_symm_val dot_S2000x26_S26x256_S2000x256_1_0_0_1_n_n 26 rfl rfl k
  have el : dot_S2000x26_S26x256_S2000x256_1_0_0_1_n_n.lhsIdx (ix2 r j) ((contrEquiv1 dot_S2000x26_S26x256_S2000x256_1_0_0_1_n_n 26 rfl rfl).symm k) = ix2 r k := funext fun a => Fin.ext (by
    match a with
    | ⟨0, _⟩ => exact lhs_plane_0 _ _
    | ⟨1, _⟩ => exact (lhs_plane_1 _ _).trans hk)
  have er : dot_S2000x26_S26x256_S2000x256_1_0_0_1_n_n.rhsIdx (ix2 r j) ((contrEquiv1 dot_S2000x26_S26x256_S2000x256_1_0_0_1_n_n 26 rfl rfl).symm k) = ix2 k j := funext fun a => Fin.ext (by
    match a with
    | ⟨0, _⟩ => exact (rhs_plane_0 _ _).trans hk
    | ⟨1, _⟩ => exact rhs_plane_1 _ _)
  rw [el, er]

/-! ### The two halves of a [2000, 256] array -/

/-- The left half, columns 0 to 127, read at an entry. -/
theorem slice_lo_apply {α : Type} (v : S2000x256.Idx → α) (h : S2000x256.Slices ![0, 0] S2000x128) (r : Fin 2000) (c : Fin 128) :
    extractStridedSlice S2000x128 ![0, 0] v h (ix2 r c) = v (ix2 r ⟨c.val, by omega⟩) :=
  extractStridedSlice_apply _ _ _ _ _ (fun ax => by
    match ax with
    | ⟨0, _⟩ => exact (Nat.zero_add _).symm
    | ⟨1, _⟩ => exact (Nat.zero_add _).symm)

/-- The right half, columns 128 to 255, read at an entry. -/
theorem slice_hi_apply {α : Type} (v : S2000x256.Idx → α) (h : S2000x256.Slices ![0, 128] S2000x128) (r : Fin 2000) (c : Fin 128) :
    extractStridedSlice S2000x128 ![0, 128] v h (ix2 r c) = v (ix2 r ⟨128 + c.val, by omega⟩) :=
  extractStridedSlice_apply _ _ _ _ _ (fun ax => by
    match ax with
    | ⟨0, _⟩ => exact (Nat.zero_add _).symm
    | ⟨1, _⟩ => rfl)

/-! ### The scalar constants and the ELU -/

/-- The single-precision word of one denotes one. -/
theorem ofBits_one_f32 : Ideal.ofBits .f32 0x3F800000#32 = 1 := by
  simp [Ideal.ofBits, Ideal.ieee, -EReal.coe_mul]; norm_num

/-- The select on "greater than zero" between the argument and exp(min(argument, 0)) − 1 is the ELU. -/
theorem select_elu (x : EReal) :
    Scalar.select (Ideal.cmp .ogt x 0) x (Ideal.exp (min x 0) - 1) = Cert.EdgeSpec.elu x := by
  unfold Cert.EdgeSpec.elu Scalar.select Ideal.cmp
  by_cases h : 0 < x
  · simp [h]
  · simp [h]

/-- The kernel's ELU of a block, read at an index. -/
theorem elu_block_apply (v : FVec Ideal S2000x128 .f32) (i : S2000x128.Idx) :
    select (cmpf .ogt v (broadcast S2000x128 (Scalar.ofBits (F := Ideal) .f32 0x00000000#32))) v
        (subf (exp (minimumf v (broadcast S2000x128 (Scalar.ofBits (F := Ideal) .f32 0x00000000#32))))
          (broadcast S2000x128 (Scalar.ofBits (F := Ideal) .f32 0x3F800000#32))) i
      = Cert.EdgeSpec.elu (v i) := by
  show Scalar.select (Ideal.cmp .ogt (v i) (Ideal.ofBits .f32 0x00000000#32)) (v i)
      (Ideal.exp (min (v i) (Ideal.ofBits .f32 0x00000000#32)) - Ideal.ofBits .f32 0x3F800000#32) = _
  rw [Ideal.ofBits_zero_f32, ofBits_one_f32]
  exact select_elu _

/-- The logistic function of a block, read at an index. -/
theorem logistic_apply {s : Shape} {φ : FTy} (v : FVec Ideal s φ) (i : s.Idx) : logistic v i = Ideal.logistic (v i) := rfl

/-! ### The payloads at an entry -/

theorem pay2_apply (x0 x1 : Vec Ideal S2000x128 .f32) (x2 : Vec Ideal S2000x1 .f32) (x5 x6 x7 : Vec Ideal S128x256 .bf16)
    (r : Fin 2000) (j : Fin 256) :
    k0_pay2 (F := Ideal) x0 x1 x2 x5 x6 x7 (ix2 r j)
      = (∑ k : Fin 128, x0 (ix2 r k) * x5 (ix2 k j) + ∑ k : Fin 128, x1 (ix2 r k) * x6 (ix2 k j))
        + ∑ k : Fin 128, Ideal.div (x1 (ix2 r k) - x0 (ix2 r k)) (x2 (ix2 r 0)) * x7 (ix2 k j) := by
  unfold k0_pay2
  simp only [shapeCast_self]
  rw [addf_apply, addf_apply, matmul_wide_apply, matmul_wide_apply, matmul_wide_apply]
  refine congrArg₂ (· + ·) rfl (Finset.sum_congr rfl fun k _ => ?_)
  rw [truncf_apply, divf_apply, subf_apply, Cert.LibColumn.broadcastTo_a1_ab_apply]

/-- The gate: the logistic function of the left half of the three summed products. -/
theorem pay3_apply (x0 x1 : Vec Ideal S2000x128 .f32) (x2 : Vec Ideal S2000x1 .f32) (x5 x6 x7 : Vec Ideal S128x256 .bf16)
    (r : Fin 2000) (c : Fin 128) :
    k0_pay3 (F := Ideal) x0 x1 x2 x5 x6 x7 (ix2 r c)
      = Ideal.logistic (k0_pay2 (F := Ideal) x0 x1 x2 x5 x6 x7 (ix2 r ⟨c.val, by omega⟩)) := by
  unfold k0_pay3
  exact congrArg Ideal.logistic (slice_lo_apply _ _ r c)

/-- The ELU of the right half of the three summed products. -/
theorem pay4_apply (x0 x1 : Vec Ideal S2000x128 .f32) (x2 : Vec Ideal S2000x1 .f32) (x5 x6 x7 : Vec Ideal S128x256 .bf16)
    (r : Fin 2000) (c : Fin 128) :
    k0_pay4 (F := Ideal) x0 x1 x2 x5 x6 x7 (ix2 r c)
      = Cert.EdgeSpec.elu (k0_pay2 (F := Ideal) x0 x1 x2 x5 x6 x7 (ix2 r ⟨128 + c.val, by omega⟩)) := by
  unfold k0_pay4
  exact (elu_block_apply _ _).trans (congrArg Cert.EdgeSpec.elu (slice_hi_apply _ _ r c))

/-- The stored block: the product of the gate and the ELU, times the radial product plus the gated plane-wave product. -/
theorem pay1_apply (g m : FVec Ideal S2000x128 .f32) (s : FVec Ideal S2000x128 .bf16) (p : Vec Ideal S2000x26 .f32)
    (u1 : Vec Ideal S128x128 .bf16) (u2 : Vec Ideal S26x256 .bf16) (r : Fin 2000) (c : Fin 128) :
    k0_pay1 (F := Ideal) g m s p u1 u2 (ix2 r c)
      = (g (ix2 r c) * m (ix2 r c))
        * (∑ k : Fin 128, s (ix2 r k) * u1 (ix2 k c)
          + (∑ k : Fin 26, p (ix2 r k) * u2 (ix2 k ⟨c.val, by omega⟩))
            * Ideal.logistic (∑ k : Fin 26, p (ix2 r k) * u2 (ix2 k ⟨128 + c.val, by omega⟩))) := by
  unfold k0_pay1
  simp only [shapeCast_self]
  rw [mulf_apply, mulf_apply, addf_apply, mulf_apply, matmul_square_apply]
  rw [logistic_apply, slice_lo_apply, slice_hi_apply, matmul_plane_apply, matmul_plane_apply]
  rfl

/-! ### The block a grid point writes -/

/-- The origin of every block's rectangle is zero. -/
theorem origin_zero : (![0, 0] : Fin 2 → Nat) = fun _ => 0 := funext fun a => by fin_cases a <;> rfl

theorem out_apply (x0 x1 : Vec Ideal S2000x128 .f32) (x2 : Vec Ideal S2000x1 .f32) (x3 : Vec Ideal S2000x128 .f32)
    (x4 : Vec Ideal S2000x26 .f32) (x5 x6 x7 : Vec Ideal S128x256 .bf16) (x8 : Vec Ideal S128x128 .bf16)
    (x9 : Vec Ideal S26x256 .bf16) (r : Fin 2000) (c : Fin 128) :
    out0_10 (F := Ideal) x0 x1 x2 x3 x4 x5 x6 x7 x8 x9 (ix2 r c)
      = Cert.EdgeSpec.edgeRow (fun k => x0 (ix2 r k)) (fun k => x1 (ix2 r k)) (x2 (ix2 r 0)) (fun k => x3 (ix2 r k))
          (fun k => x4 (ix2 r k))
          (fun k => x5 (ix2 k ⟨c.val, by omega⟩)) (fun k => x6 (ix2 k ⟨c.val, by omega⟩)) (fun k => x7 (ix2 k ⟨c.val, by omega⟩))
          (fun k => x5 (ix2 k ⟨128 + c.val, by omega⟩)) (fun k => x6 (ix2 k ⟨128 + c.val, by omega⟩))
          (fun k => x7 (ix2 k ⟨128 + c.val, by omega⟩))
          (fun k => x8 (ix2 k c)) (fun k => x9 (ix2 k ⟨c.val, by omega⟩)) (fun k => x9 (ix2 k ⟨128 + c.val, by omega⟩)) := by
  unfold out0_10
  rw [View.canon_unit_zero origin_zero]
  simp only [View.ld_unit_zero (S := S2000x128) origin_zero, View.ld_unit_zero (S := S2000x1) origin_zero,
    View.ld_unit_zero (S := S128x256) origin_zero, View.ld_unit_zero (S := S2000x26) origin_zero,
    View.ld_unit_zero (S := S128x128) origin_zero, View.ld_unit_zero (S := S26x256) origin_zero]
  rw [pay1_apply, pay3_apply, pay4_apply, pay2_apply, pay2_apply]
  rfl

end Cert.KernelIdeal.Payload

end
-- ==== Proof.Region.lean ====
/-
  The array the fused kernel's region leaves: every grid point writes rows `2000 t … 2000 t + 1999` of the message array,
  each entry the message of that row of the region-entry arrays; the 200 points cover all 400000 rows.
-/
import proofs.«426576_j80547816669790_3_alg».proof.Proof.BlockReads
import proofs.«426576_j80547816669790_3_alg».proof.Proof.Payload
import proofs.«426576_j80547816669790_3_alg».proof.Proof.Spec

noncomputable section

namespace Cert.KernelIdeal.Region

open Cert.KernelIdeal Cert.KernelIdeal.Gen Cert.KernelIdeal.Blocks Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ)

/-- The message of edge `e` at column `cc`, from the arrays as the region finds them. -/
def gkRow (c : Dev nD) (e : Fin 400000) (cc : Fin 128) : EReal :=
  Cert.EdgeSpec.edgeRow (fun k => A0 m c (ix2 e k)) (fun k => A1 m c (ix2 e k)) (A2 m c (ix2 e 0)) (fun k => A3 m c (ix2 e k))
    (fun k => A4 m c (ix2 e k))
    (fun k => A5 m c (ix2 k ⟨cc.val, by omega⟩)) (fun k => A6 m c (ix2 k ⟨cc.val, by omega⟩)) (fun k => A7 m c (ix2 k ⟨cc.val, by omega⟩))
    (fun k => A5 m c (ix2 k ⟨128 + cc.val, by omega⟩)) (fun k => A6 m c (ix2 k ⟨128 + cc.val, by omega⟩))
    (fun k => A7 m c (ix2 k ⟨128 + cc.val, by omega⟩))
    (fun k => A8 m c (ix2 k cc)) (fun k => A9 m c (ix2 k ⟨cc.val, by omega⟩)) (fun k => A9 m c (ix2 k ⟨128 + cc.val, by omega⟩))

/-- All messages, as the region's output array. -/
def Gk (c : Dev nD) : FVec Ideal S400000x128 .f32 := fun i => gkRow m c (i 0) (i 1)

/-- A block whose entry `(r, cc)` is the array `G` at `(2000 t + r, cc)` is block `t` of `G`, as the output window cuts it. -/
theorem cut_eq_read (t : Fin cfg0.N) (B : Vec Ideal S2000x128 .f32) (G : FVec Ideal S400000x128 .f32)
    (h : ∀ (r : Fin 2000) (cc : Fin 128), B (ix2 r cc) = G (ix2 ⟨2000 * t.val + r.val, by have := t_lt t; omega⟩ cc)) :
    (cfg0.win 10).cut (grid0.coords t) B = ((cfg0.win 10).blk t).view.read (Elt Ideal) G := by
  funext j
  obtain ⟨r, cc, rfl⟩ : ∃ (r : Fin 2000) (cc : Fin 128), j = (ix2 r cc : S2000x128.Idx) := ⟨j 0, j 1, eq_ix2 j⟩
  rw [View.read_apply, emb10]
  show B (ix2 r cc) = G _
  exact h r cc

/-- What point `t` writes back is block `t` of `Gk`. -/
theorem flushed_eq (c : Dev nD) (t : Fin cfg0.N) :
    (dats m 0 c).flushed 10 t = ((cfg0.win 10).blk t).view.read (Elt Ideal) (Gk m c) := by
  show (cfg0.win 10).cut (grid0.coords t) ((dats m 0 c).after 10 t) = _
  rw [after0_10]
  refine cut_eq_read t _ (Gk m c) fun r cc => ?_
  refine (Payload.out_apply (iblk m c 0 t) (iblk m c 1 t) (iblk m c 2 t) (iblk m c 3 t) (iblk m c 4 t) (iblk m c 5 t)
    (iblk m c 6 t) (iblk m c 7 t) (iblk m c 8 t) (iblk m c 9 t) r cc).trans ?_
  show _ = gkRow m c _ cc
  unfold gkRow
  simp only [iblk0_apply, iblk1_apply, iblk2_apply, iblk3_apply, iblk4_apply, iblk5_apply, iblk6_apply, iblk7_apply,
    iblk8_apply, iblk9_apply]

/-- An index of the message array is in point `t`'s block iff each coordinate is in the block's range on its axis. -/
theorem mem_blk (t : Fin cfg0.N) (i : S400000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v27).slice (win0_10.rect t)).set ↔ _
  rw [View.set_slice_whole, Rect.mem_set_unit]
  exact Iff.rfl

/-- Every row is some point's: row `e` is in the block of point `e / 2000`. -/
theorem cover (i : S400000x128.Idx) :
    ∃ t : Fin cfg0.N, (cfg0.win 10).flush t = true ∧ i ∈ ((cfg0.win 10).blk t).view.set := by
  have hi0 : (i 0).val < 400000 := idx2_lt0 i
  have hi1 : (i 1).val < 128 := idx2_lt1 i
  have ht : (i 0).val / 2000 < cfg0.N := by rw [show cfg0.N = 200 from N_0]; omega
  obtain ⟨-, -, -, -, -, ⟨h0, h1⟩, -⟩ := idx_facts ⟨(i 0).val / 2000, ht⟩
  refine ⟨⟨(i 0).val / 2000, ht⟩, flush0_10 _, ?_⟩
  rw [mem_blk]
  intro a
  match a with
  | ⟨0, _⟩ =>
    show win0_10.index ⟨(i 0).val / 2000, ht⟩ 0 * 2000 ≤ (i 0).val
      ∧ (i 0).val < win0_10.index ⟨(i 0).val / 2000, ht⟩ 0 * 2000 + 2000
    rw [h0]; show (i 0).val / 2000 * 2000 ≤ (i 0).val ∧ (i 0).val < (i 0).val / 2000 * 2000 + 2000; omega
  | ⟨1, _⟩ =>
    show win0_10.index ⟨(i 0).val / 2000, ht⟩ 1 * 128 ≤ (i 1).val
      ∧ (i 1).val < win0_10.index ⟨(i 0).val / 2000, ht⟩ 1 * 128 + 128
    rw [h1]; omega

/-- The region's output array after the run is `Gk`. -/
theorem final (c : Dev nD) : (dats m 0 c).arrAt 10 cfg0.N = Gk m c :=
  (dats m 0 c).arrAt_eq_of_cover 10 (Gk m c) (fun t _ => flushed_eq m c t) cover

end Cert.KernelIdeal.Region

end
-- ==== Proof.LibTakeFill.lean ====
/-
  A filling gather whose bounds test passes everywhere is the plain gather.

  A gather that fills out-of-range rows with a constant is a `select` between the gathered rows and the constant under
  a one-bit mask: the "and" over a row's index components of "the component is in range". Where every component is in
  range the reduce is one at every row, and a `select` under an all-ones mask is its first branch.
-/
import Idealize.ShloMosaic.PureOps.Ideal
import Idealize.ShloMosaic.Lib.ReduceAll
import Idealize.ShloMosaic.Lib.ValueIdx

namespace Cert.TakeFill

open Idealize.ShloMosaic

/-- A left fold by "and" from one over words that are all one is one. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => foldl_andi_of_all f l _ (by show IntOp.andi init (f a) = 1#1; rw [h, hl a List.mem_cons_self]; decide)
      (fun n hn => hl n (List.mem_cons_of_mem _ hn))

/-- A reduce by "and" from one over an array of ones is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit (fun n _ => hx n)

/-- A `select` under a mask that is one everywhere is its first branch. -/
theorem select_of_mask_one {s : Shape} {α : Type} (M : IVec s 1) (a b : s.Idx → α) (hM : ∀ i, M i = 1#1) : select M a b = a := by
  funext i
  rw [ValueIdx.select_apply]
  unfold Scalar.select
  exact if_pos (hM i)

end Cert.TakeFill
-- ==== Proof.LibDense.lean ====
/-
  One layer of the network as ONE function of whole arrays, and the reading of a side-by-side concatenation at an entry.

  A layer takes two row-aligned arrays `a`, `b` of `N` rows and `D` columns (a node's own features and the mean of its
  neighbours' features), lays them side by side into rows of `K = D + D` entries, multiplies by a weight matrix of `K` rows
  and `H` columns, adds a bias per column and clips below at zero:
      out[r, j] = max (Σ_k [a | b][r, k] · W[k, j] + bias[j]) 0        on the extended reals.
-/
import Idealize.ShloMosaic.PureOps.Ideal
import Idealize.ShloMosaic.Lib.ValueIdx
import Idealize.ShloMosaic.Lib.Pipeline.Value

noncomputable section

open scoped BigOperators

namespace Cert.Dense

open Idealize.ShloMosaic Idealize.ShloMosaic.ValueIdx

/-- Entry `k` of row `r` of `[a | b]`: `a`'s entry for `k < D`, `b`'s entry `k - D` for the next `D` columns. -/
def catRow {N D K : Nat} (a b : (⟨2, ![N, D]⟩ : Shape).Idx → EReal) (r : Fin N) (k : Fin K) : EReal :=
  if h : k.val < D then a (ix2 r ⟨k.val, h⟩)
  else if h2 : k.val - D < D then b (ix2 r ⟨k.val - D, h2⟩) else 0

/-- The layer: `max (Σ_k [a | b][r, k] · W[k, j] + bias[j]) 0` at entry `(r, j)`. -/
def dense {N D K H : Nat} (a b : (⟨2, ![N, D]⟩ : Shape).Idx → EReal) (W : (⟨2, ![K, H]⟩ : Shape).Idx → EReal)
    (bias : Fin H → EReal) : (⟨2, ![N, H]⟩ : Shape).Idx → EReal :=
  fun i => max ((∑ k : Fin K, catRow a b (i 0) k * W (ix2 k (i 1))) + bias (i 1)) 0

theorem dense_apply {N D K H : Nat} (a b : (⟨2, ![N, D]⟩ : Shape).Idx → EReal) (W : (⟨2, ![K, H]⟩ : Shape).Idx → EReal)
    (bias : Fin H → EReal) (r : Fin N) (j : Fin H) :
    dense a b W bias (ix2 r j) = max ((∑ k : Fin K, catRow a b r k * W (ix2 k j)) + bias j) 0 := rfl

/-- Rows that agree entry by entry give the same concatenated row: row `r` of `[a | b]` is row `r'` of `[a' | b']`
    when `a`'s row `r` is `a'`'s row `r'` and likewise for `b`. -/
theorem catRow_congr {N N' D K : Nat} (a b : (⟨2, ![N, D]⟩ : Shape).Idx → EReal) (a' b' : (⟨2, ![N', D]⟩ : Shape).Idx → EReal)
    (r : Fin N) (r' : Fin N') (ha : ∀ k : Fin D, a (ix2 r k) = a' (ix2 r' k)) (hb : ∀ k : Fin D, b (ix2 r k) = b' (ix2 r' k))
    (k : Fin K) : catRow a b r k = catRow a' b' r' k := by
  unfold catRow
  by_cases h : k.val < D
  · rw [dif_pos h, dif_pos h]; exact ha _
  · rw [dif_neg h, dif_neg h]
    by_cases h2 : k.val - D < D
    · rw [dif_pos h2, dif_pos h2]; exact hb _
    · rw [dif_neg h2, dif_neg h2]

/-- Two arrays of `D` columns joined along the column axis into `K = D + D` columns, read at entry `(r, k)`. -/
theorem concatenate_cols_apply {N D K : Nat} (hK : D + D = K) (x₁ x₂ : (⟨2, ![N, D]⟩ : Shape).Idx → EReal)
    (h : Shape.Concatenates [(⟨2, ![N, D]⟩ : Shape), (⟨2, ![N, D]⟩ : Shape)] (⟨2, ![N, K]⟩ : Shape) (1 : Fin 2))
    (r : Fin N) (k : Fin K) :
    concatenate (⟨2, ![N, K]⟩ : Shape) (1 : Fin 2) [⟨(⟨2, ![N, D]⟩ : Shape), x₁⟩, ⟨(⟨2, ![N, D]⟩ : Shape), x₂⟩] h (ix2 r k)
      = catRow x₁ x₂ r k := by
  unfold catRow
  by_cases hk : k.val < D
  · rw [dif_pos hk]
    exact concatenate_pair_apply_left (1 : Fin 2) x₁ x₂ h (ix2 r k) rfl (ix2 r ⟨k.val, hk⟩)
      (fun b => match b with | ⟨0, _⟩ => rfl | ⟨1, _⟩ => rfl)
  · have h2 : k.val - D < D := by have := k.isLt; omega
    rw [dif_neg hk, dif_pos h2]
    exact concatenate_pair_apply_right (1 : Fin 2) x₁ x₂ h (ix2 r k) rfl rfl (ix2 r ⟨k.val - D, h2⟩)
      (fun b => match b with | ⟨0, _⟩ => fun _ => rfl | ⟨1, _⟩ => fun hne => absurd rfl hne)
      (by show k.val - D + D = k.val; omega)

end Cert.Dense

end
-- ==== Proof.Prelude.lean ====
/-
  What the fused program's region finds in the arrays its host lines wrote: the two filling gathers (which are the plain
  gathers where every index passes the bounds test), the edge lengths as a column, and the merged weight blocks entry by
  entry (each a transposed block of a weight matrix, two of them side by side).
-/
import proofs.«426576_j80547816669790_3_alg».proof.Proof.Gen.KernelIdeal.Frame
import proofs.«426576_j80547816669790_3_alg».proof.Proof.KerTerm
import proofs.«426576_j80547816669790_3_alg».proof.Proof.LibTakeFill
import proofs.«426576_j80547816669790_3_alg».proof.Proof.LibDense
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prelude

open Cert.KernelIdeal Cert.KernelIdeal.Gen Cert.KernelIdeal.KerTerm Idealize.ShloMosaic Idealize.ShloMosaic.ValueIdx
  Idealize.ShloMosaic.TcCoe Idealize.SL.Sem

variable (m : (ℓ : Loc nD τ sig) → Buf (Elt Ideal) ℓ)

/-- Where every index passes the bounds test, the filling gather is the plain gather. -/
theorem takeFill_eq (x : FVec Ideal S50000x128 .f32) (a : IVec S400000 32) (h : ∀ i, takeMask a i = 1#1) :
    takeFill x a = rows x a := by
  unfold takeFill
  -- the mask of the select is one at every entry: it is a broadcast of the row-wise "and" of an all-ones array
  refine Cert.TakeFill.select_of_mask_one _ _ _ fun i => ?_
  unfold broadcastInDim
  exact Cert.TakeFill.reduce_andi_of_all (takeMask a) (constantI S_ 1 1#1) reducesTo_S400000x1_S400000_d1 h_S_ rfl h _

/-! ## Layout operations read at an entry -/

/-- A vector laid out as a column reads, at row `e`, the vector's entry `e`. -/
private theorem col_apply {n : Nat} (h : (⟨1, ![n]⟩ : Shape).BroadcastsInDim ⟨2, ![n, 1]⟩ ![0])
    (v : (⟨1, ![n]⟩ : Shape).Idx → EReal) (e : Fin n) :
    broadcastInDim (⟨2, ![n, 1]⟩ : Shape) ![0] h v (ix2 e 0) = v (ix1 e) := by
  refine broadcastInDim_apply ![0] h v (ix2 e 0) (ix1 e) (fun a => ?_)
  match a with
  | ⟨0, _⟩ =>
    show e.val = if n = 1 then 0 else e.val
    split
    · next h1 => have := e.isLt; omega
    · rfl

/-- The transpose of the block of columns `o … o + 127` of a matrix reads, at `(k, j)`, the matrix at `(j, o + k)`. -/
private theorem blockT_apply {C : Nat} (o : Nat) (A : (⟨2, ![128, C]⟩ : Shape).Idx → EReal)
    (hs : (⟨2, ![128, C]⟩ : Shape).Slices ![0, o] ⟨2, ![128, 128]⟩)
    (ht : (⟨2, ![128, 128]⟩ : Shape).Transposes [1, 0] ⟨2, ![128, 128]⟩) (k j : Fin 128) (q : Fin C) (hq : q.val = o + k.val) :
    transpose (⟨2, ![128, 128]⟩ : Shape) [1, 0] (extractStridedSlice (⟨2, ![128, 128]⟩ : Shape) ![0, o] A hs) ht (ix2 k j)
      = A (ix2 j q) := by
  rw [transpose_ix2_apply]
  exact slice2_axis1_apply o A hs j k q hq

/-- Two arrays of 128 columns side by side read, in the first 128 columns, the first array. -/
private theorem cat_lo {N : Nat} (x₁ x₂ : (⟨2, ![N, 128]⟩ : Shape).Idx → EReal)
    (h : Shape.Concatenates [(⟨2, ![N, 128]⟩ : Shape), (⟨2, ![N, 128]⟩ : Shape)] (⟨2, ![N, 256]⟩ : Shape) (1 : Fin 2))
    (k : Fin N) (j : Fin 128) :
    concatenate (⟨2, ![N, 256]⟩ : Shape) (1 : Fin 2) [⟨(⟨2, ![N, 128]⟩ : Shape), x₁⟩, ⟨(⟨2, ![N, 128]⟩ : Shape), x₂⟩] h
        (ix2 k ⟨j.val, by omega⟩) = x₁ (ix2 k j) := by
  rw [Cert.Dense.concatenate_cols_apply (by norm_num)]
  unfold Cert.Dense.catRow
  exact dif_pos j.isLt

/-- … and, in the last 128 columns, the second array. -/
private theorem cat_hi {N : Nat} (x₁ x₂ : (⟨2, ![N, 128]⟩ : Shape).Idx → EReal)
    (h : Shape.Concatenates [(⟨2, ![N, 128]⟩ : Shape), (⟨2, ![N, 128]⟩ : Shape)] (⟨2, ![N, 256]⟩ : Shape) (1 : Fin 2))
    (k : Fin N) (j : Fin 128) :
    concatenate (⟨2, ![N, 256]⟩ : Shape) (1 : Fin 2) [⟨(⟨2, ![N, 128]⟩ : Shape), x₁⟩, ⟨(⟨2, ![N, 128]⟩ : Shape), x₂⟩] h
        (ix2 k ⟨128 + j.val, by omega⟩) = x₂ (ix2 k j) := by
  rw [Cert.Dense.concatenate_cols_apply (by norm_num)]
  unfold Cert.Dense.catRow
  have h1 : ¬ (128 + j.val < 128) := by omega
  have h2 : 128 + j.val - 128 < 128 := by omega
  rw [dif_neg h1, dif_pos h2]
  exact congrArg x₂ (congrArg (ix2 k) (Fin.ext (by show 128 + j.val - 128 = j.val; omega)))

/-! ## The host lines in three stretches -/

/-- A fold over two stretches of lines is the fold over the second from what the first leaves. -/
private theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What the first gather's lines leave. -/
private def W0 (c : Dev nD) : Valuation τ sig (Elt Ideal) := StableHlo.after hostOps0 (fun b => m (c, b))
/-- What both gathers' lines leave. -/
private def W1 (c : Dev nD) : Valuation τ sig (Elt Ideal) := StableHlo.after hostOps0_1 (W0 m c)

/-- The contents when the region is entered: the third stretch of lines over what the gathers left. -/
private theorem V0_eq (c : Dev nD) : V0 m c = StableHlo.after hostOps0_2 (W1 m c) := by
  unfold W1 W0
  show StableHlo.after (List.flatten [hostOps0, hostOps0_1, hostOps0_2]) _ = _
  rw [List.flatten_cons, List.flatten_cons, List.flatten_cons, List.flatten_nil, List.append_nil, after_append, after_append]

/-- No line of a stretch writes the buffer: each line writes its own result buffer only, another reference. -/
local macro "not_written" : tactic => `(tactic| (
  refine List.forall_iff_forall_mem.mp ?_
  simp only [hostOps0, hostOps0_1, hostOps0_2, List.Forall, StableHlo.nullary_writes, StableHlo.unary_writes,
    StableHlo.binary_writes, StableHlo.ternary_writes, Finset.mem_singleton]
  repeat' apply And.intro
  all_goals exact StableHlo.devRef_ne_of_ne (by decide)))

private theorem W0_arg0 (c : Dev nD) : W0 m c (Proc.devRef .tc main_arg0) = m ((c : Thread nD τ).loc main_arg0) :=
  StableHlo.after_of_forall_not_mem (b := Proc.devRef .tc main_arg0) _ _ (by not_written)
private theorem W0_arg3 (c : Dev nD) : W0 m c (Proc.devRef .tc main_arg3) = m ((c : Thread nD τ).loc main_arg3) :=
  StableHlo.after_of_forall_not_mem (b := Proc.devRef .tc main_arg3) _ _ (by not_written)
private theorem W0_arg4 (c : Dev nD) : W0 m c (Proc.devRef .tc main_arg4) = m ((c : Thread nD τ).loc main_arg4) :=
  StableHlo.after_of_forall_not_mem (b := Proc.devRef .tc main_arg4) _ _ (by not_written)
private theorem W0_arg7 (c : Dev nD) : W0 m c (Proc.devRef .tc main_arg7) = m ((c : Thread nD τ).loc main_arg7) :=
  StableHlo.after_of_forall_not_mem (b := Proc.devRef .tc main_arg7) _ _ (by not_written)
private theorem W0_arg8 (c : Dev nD) : W0 m c (Proc.devRef .tc main_arg8) = m ((c : Thread nD τ).loc main_arg8) :=
  StableHlo.after_of_forall_not_mem (b := Proc.devRef .tc main_arg8) _ _ (by not_written)
private theorem W0_arg9 (c : Dev nD) : W0 m c (Proc.devRef .tc main_arg9) = m ((c : Thread nD τ).loc main_arg9) :=
  StableHlo.after_of_forall_not_mem (b := Proc.devRef .tc main_arg9) _ _ (by not_written)
private theorem W0_arg10 (c : Dev nD) : W0 m c (Proc.devRef .tc main_arg10) = m ((c : Thread nD τ).loc main_arg10) :=
  StableHlo.after_of_forall_not_mem (b := Proc.devRef .tc main_arg10) _ _ (by not_written)
private theorem W0_arg11 (c : Dev nD) : W0 m c (Proc.devRef .tc main_arg11) = m ((c : Thread nD τ).loc main_arg11) :=
  StableHlo.after_of_forall_not_mem (b := Proc.devRef .tc main_arg11) _ _ (by not_written)

private theorem W1_arg4 (c : Dev nD) : W1 m c (Proc.devRef .tc main_arg4) = in4 m c :=
  (StableHlo.after_of_forall_not_mem (b := Proc.devRef .tc main_arg4) _ _ (by not_written)).trans (W0_arg4 m c)
private theorem W1_arg7 (c : Dev nD) : W1 m c (Proc.devRef .tc main_arg7) = in7 m c :=
  (StableHlo.after_of_forall_not_mem (b := Proc.devRef .tc main_arg7) _ _ (by not_written)).trans (W0_arg7 m c)
private theorem W1_arg8 (c : Dev nD) : W1 m c (Proc.devRef .tc main_arg8) = in8 m c :=
  (StableHlo.after_of_forall_not_mem (b := Proc.devRef .tc main_arg8) _ _ (by not_written)).trans (W0_arg8 m c)
private theorem W1_arg9 (c : Dev nD) : W1 m c (Proc.devRef .tc main_arg9) = in9 m c :=
  (StableHlo.after_of_forall_not_mem (b := Proc.devRef .tc main_arg9) _ _ (by not_written)).trans (W0_arg9 m c)
private theorem W1_arg10 (c : Dev nD) : W1 m c (Proc.devRef .tc main_arg10) = in10 m c :=
  (StableHlo.after_of_forall_not_mem (b := Proc.devRef .tc main_arg10) _ _ (by not_written)).trans (W0_arg10 m c)
private theorem W1_arg11 (c : Dev nD) : W1 m c (Proc.devRef .tc main_arg11) = in11 m c :=
  (StableHlo.after_of_forall_not_mem (b := Proc.devRef .tc main_arg11) _ _ (by not_written)).trans (W0_arg11 m c)

/-- Inside a concatenation's operand list: a line's result at its own buffer is its function's value, at any other buffer
    what was there before the line. -/
local macro "results_by_rw" : tactic => `(tactic| repeat (first
  | rw [StableHlo.unary_result] | rw [StableHlo.binary_result]
  | (rw [StableHlo.unary_result_ne]; rotate_left; decide)
  | (rw [StableHlo.binary_result_ne]; rotate_left; decide)))

/-! ## The two filling gathers -/

set_option maxHeartbeats 2000000 in
theorem V_v0 (c : Dev nD) : (V m c main_v0 : FVec Ideal S400000x128 .f32) = takeFill (in0 m c) (in2 m c) := by
  show V0 m c (Proc.devRef .tc main_v0) = _
  -- neither the second gather's lines nor the third stretch write the first gather's result
  rw [V0_eq, StableHlo.after_of_forall_not_mem (b := Proc.devRef .tc main_v0) _ _ (by not_written)]
  unfold W1
  rw [StableHlo.after_of_forall_not_mem (b := Proc.devRef .tc main_v0) _ _ (by not_written)]
  unfold W0
  simp only [Gen.hostOps0]
  after_results_simp
  simp only [StableHlo.TRef.ofBuf, StableHlo.TRef.toBuf, cast_eq]
  rfl

set_option maxHeartbeats 2000000 in
theorem V_v1 (c : Dev nD) : (V m c main_v1 : FVec Ideal S400000x128 .f32) = takeFill (in0 m c) (in3 m c) := by
  show V0 m c (Proc.devRef .tc main_v1) = _
  -- the third stretch does not write the second gather's result
  rw [V0_eq, StableHlo.after_of_forall_not_mem (b := Proc.devRef .tc main_v1) _ _ (by not_written)]
  unfold W1
  simp only [Gen.hostOps0_1]
  after_results_simp
  simp only [StableHlo.TRef.ofBuf, StableHlo.TRef.toBuf, cast_eq]
  rw [W0_arg0, W0_arg3]
  rfl

/-! ## The arrays of the third stretch as terms of the inputs -/

set_option maxHeartbeats 2000000 in
private theorem e_v2 (c : Dev nD) : (V m c main_v2 : FVec Ideal S400000x1 .f32)
    = broadcastInDim S400000x1 ![0] bcast_S400000_S400000x1_0 (in4 m c) := by
  show V0 m c (Proc.devRef .tc main_v2) = _
  rw [V0_eq]
  simp only [Gen.hostOps0_2]
  after_results_simp
  rw [W1_arg4]

set_option maxHeartbeats 2000000 in
private theorem e_v12 (c : Dev nD) : (V m c main_v12 : FVec Ideal S128x256 .bf16) =
    truncf .bf16 (concatenate S128x256 1
      [⟨S128x128, transpose S128x128 [1, 0] (extractStridedSlice S128x128 ![0, 0] (in10 m c) slices_S128x384_S128x128_0_0) transposes_S128x128_S128x128_1_0⟩,
       ⟨S128x128, transpose S128x128 [1, 0] (extractStridedSlice S128x128 ![0, 0] (in11 m c) slices_S128x384_S128x128_0_0) transposes_S128x128_S128x128_1_0⟩]
      concatenates_S128x128_S128x128_S128x256_d1) bitsLt_bf16_f32 := by
  show V0 m c (Proc.devRef .tc main_v12) = _
  rw [V0_eq]
  simp only [Gen.hostOps0_2]
  after_results_simp
  results_by_rw
  rw [W1_arg10, W1_arg11]

set_option maxHeartbeats 2000000 in
private theorem e_v16 (c : Dev nD) : (V m c main_v16 : FVec Ideal S128x256 .bf16) =
    truncf .bf16 (concatenate S128x256 1
      [⟨S128x128, transpose S128x128 [1, 0] (extractStridedSlice S128x128 ![0, 128] (in10 m c) slices_S128x384_S128x128_0_128) transposes_S128x128_S128x128_1_0⟩,
       ⟨S128x128, transpose S128x128 [1, 0] (extractStridedSlice S128x128 ![0, 128] (in11 m c) slices_S128x384_S128x128_0_128) transposes_S128x128_S128x128_1_0⟩]
      concatenates_S128x128_S128x128_S128x256_d1) bitsLt_bf16_f32 := by
  show V0 m c (Proc.devRef .tc main_v16) = _
  rw [V0_eq]
  simp only [Gen.hostOps0_2]
  after_results_simp
  results_by_rw
  rw [W1_arg10, W1_arg11]

set_option maxHeartbeats 2000000 in
private theorem e_v20 (c : Dev nD) : (V m c main_v20 : FVec Ideal S128x256 .bf16) =
    truncf .bf16 (concatenate S128x256 1
      [⟨S128x128, transpose S128x128 [1, 0] (extractStridedSlice S128x128 ![0, 256] (in10 m c) slices_S128x384_S128x128_0_256) transposes_S128x128_S128x128_1_0⟩,
       ⟨S128x128, transpose S128x128 [1, 0] (extractStridedSlice S128x128 ![0, 256] (in11 m c) slices_S128x384_S128x128_0_256) transposes_S128x128_S128x128_1_0⟩]
      concatenates_S128x128_S128x128_S128x256_d1) bitsLt_bf16_f32 := by
  show V0 m c (Proc.devRef .tc main_v20) = _
  rw [V0_eq]
  simp only [Gen.hostOps0_2]
  after_results_simp
  results_by_rw
  rw [W1_arg10, W1_arg11]

set_option maxHeartbeats 2000000 in
private theorem e_v22 (c : Dev nD) : (V m c main_v22 : FVec Ideal S128x128 .bf16)
    = truncf .bf16 (transpose S128x128 [1, 0] (in7 m c) transposes_S128x128_S128x128_1_0) bitsLt_bf16_f32 := by
  show V0 m c (Proc.devRef .tc main_v22) = _
  rw [V0_eq]
  simp only [Gen.hostOps0_2]
  after_results_simp
  rw [W1_arg7]

set_option maxHeartbeats 2000000 in
private theorem e_v26 (c : Dev nD) : (V m c main_v26 : FVec Ideal S26x256 .bf16) =
    truncf .bf16 (concatenate S26x256 1
      [⟨S26x128, transpose S26x128 [1, 0] (in8 m c) transposes_S128x26_S26x128_1_0⟩,
       ⟨S26x128, transpose S26x128 [1, 0] (in9 m c) transposes_S128x26_S26x128_1_0⟩]
      concatenates_S26x128_S26x128_S26x256_d1) bitsLt_bf16_f32 := by
  show V0 m c (Proc.devRef .tc main_v26) = _
  rw [V0_eq]
  simp only [Gen.hostOps0_2]
  after_results_simp
  results_by_rw
  rw [W1_arg8, W1_arg9]

/-! ## … read at an entry -/

theorem V_v2_apply (c : Dev nD) (e : Fin 400000) :
    (V m c main_v2 : FVec Ideal S400000x1 .f32) (ix2 e 0) = in4 m c (ix1 e) := by
  rw [e_v2]
  exact col_apply _ _ e

theorem V_v12_lo (c : Dev nD) (k j : Fin 128) :
    (V m c main_v12 : FVec Ideal S128x256 .bf16) (ix2 k ⟨j.val, by omega⟩) = in10 m c (ix2 j ⟨k.val, by omega⟩) := by
  rw [e_v12, truncf_apply]
  exact (cat_lo _ _ _ k j).trans (blockT_apply 0 _ _ _ k j _ (Nat.zero_add _).symm)
theorem V_v12_hi (c : Dev nD) (k j : Fin 128) :
    (V m c main_v12 : FVec Ideal S128x256 .bf16) (ix2 k ⟨128 + j.val, by omega⟩) = in11 m c (ix2 j ⟨k.val, by omega⟩) := by
  rw [e_v12, truncf_apply]
  exact (cat_hi _ _ _ k j).trans (blockT_apply 0 _ _ _ k j _ (Nat.zero_add _).symm)
theorem V_v16_lo (c : Dev nD) (k j : Fin 128) :
    (V m c main_v16 : FVec Ideal S128x256 .bf16) (ix2 k ⟨j.val, by omega⟩) = in10 m c (ix2 j ⟨128 + k.val, by omega⟩) := by
  rw [e_v16, truncf_apply]
  exact (cat_lo _ _ _ k j).trans (blockT_apply 128 _ _ _ k j _ rfl)
theorem V_v16_hi (c : Dev nD) (k j : Fin 128) :
    (V m c main_v16 : FVec Ideal S128x256 .bf16) (ix2 k ⟨128 + j.val, by omega⟩) = in11 m c (ix2 j ⟨128 + k.val, by omega⟩) := by
  rw [e_v16, truncf_apply]
  exact (cat_hi _ _ _ k j).trans (blockT_apply 128 _ _ _ k j _ rfl)
theorem V_v20_lo (c : Dev nD) (k j : Fin 128) :
    (V m c main_v20 : FVec Ideal S128x256 .bf16) (ix2 k ⟨j.val, by omega⟩) = in10 m c (ix2 j ⟨256 + k.val, by omega⟩) := by
  rw [e_v20, truncf_apply]
  exact (cat_lo _ _ _ k j).trans (blockT_apply 256 _ _ _ k j _ rfl)
theorem V_v20_hi (c : Dev nD) (k j : Fin 128) :
    (V m c main_v20 : FVec Ideal S128x256 .bf16) (ix2 k ⟨128 + j.val, by omega⟩) = in11 m c (ix2 j ⟨256 + k.val, by omega⟩) := by
  rw [e_v20, truncf_apply]
  exact (cat_hi _ _ _ k j).trans (blockT_apply 256 _ _ _ k j _ rfl)
theorem V_v22 (c : Dev nD) (k j : Fin 128) :
    (V m c main_v22 : FVec Ideal S128x128 .bf16) (ix2 k j) = in7 m c (ix2 j k) := by
  rw [e_v22, truncf_apply]
  exact transpose_ix2_apply _ _ k j
theorem V_v26_lo (c : Dev nD) (k : Fin 26) (j : Fin 128) :
    (V m c main_v26 : FVec Ideal S26x256 .bf16) (ix2 k ⟨j.val, by omega⟩) = in8 m c (ix2 j k) := by
  rw [e_v26, truncf_apply]
  exact (cat_lo _ _ _ k j).trans (transpose_ix2_apply _ _ k j)
theorem V_v26_hi (c : Dev nD) (k : Fin 26) (j : Fin 128) :
    (V m c main_v26 : FVec Ideal S26x256 .bf16) (ix2 k ⟨128 + j.val, by omega⟩) = in9 m c (ix2 j k) := by
  rw [e_v26, truncf_apply]
  exact (cat_hi _ _ _ k j).trans (transpose_ix2_apply _ _ k j)

end Cert.KernelIdeal.Prelude

end
-- ==== Proof.IdxRange.lean ====
/-
  An index word that NumPy accepts for an axis of 50000 entries — one in `[-50000, 50000)`, read signed — lands, once a
  negative one is counted from the end (`x + 50000`), in `[0, 49999]`: it passes the bounds test of a filling gather.
-/
import Idealize.ShloMosaic.PureOps
import Idealize.ShloMosaic.Lib.StableHlo.Predicate

namespace Cert.IdxRange

open Idealize.ShloMosaic Idealize.ShloMosaic.StableHlo.Predicate

theorem cmpi_sge_iff (a b : BitVec 32) : IntOp.cmpi .sge a b = 1#1 ↔ b.toInt ≤ a.toInt := by
  simp only [IntOp.cmpi, ofBool_eq_one_iff, BitVec.sle, decide_eq_true_eq]

theorem cmpi_sle_iff (a b : BitVec 32) : IntOp.cmpi .sle a b = 1#1 ↔ a.toInt ≤ b.toInt := by
  simp only [IntOp.cmpi, ofBool_eq_one_iff, BitVec.sle, decide_eq_true_eq]

theorem cmpi_slt_iff (a b : BitVec 32) : IntOp.cmpi .slt a b = 1#1 ↔ a.toInt < b.toInt := by
  simp only [IntOp.cmpi, ofBool_eq_one_iff, BitVec.slt, decide_eq_true_eq]

/-- The normalised index `if x < 0 then x + 50000 else x` of a word in `[-50000, 50000)` satisfies
    `0 ≤ · ∧ · ≤ 49999`: the sum does not wrap, since `x + 50000` stays far inside the 32-bit range. -/
theorem wrap_in_range (x : BitVec 32) (h1 : IntOp.cmpi .sge x 4294917296#32 = 1#1) (h2 : IntOp.cmpi .slt x 50000#32 = 1#1) :
    IntOp.andi (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have e1 : (4294917296#32 : BitVec 32).toInt = -50000 := by decide
  have e2 : (50000#32 : BitVec 32).toInt = 50000 := by decide
  have e0 : (0#32 : BitVec 32).toInt = 0 := by decide
  have e3 : (49999#32 : BitVec 32).toInt = 49999 := by decide
  rw [cmpi_sge_iff, e1] at h1
  rw [cmpi_slt_iff, e2] at h2
  have key : ∀ y : BitVec 32, 0 ≤ y.toInt → y.toInt ≤ 49999 →
      IntOp.andi (IntOp.cmpi .sge y 0#32) (IntOp.cmpi .sle y 49999#32) = 1#1 := by
    intro y hy0 hy1
    rw [(cmpi_sge_iff y 0#32).mpr (by rw [e0]; exact hy0), (cmpi_sle_iff y 49999#32).mpr (by rw [e3]; exact hy1)]
    decide
  unfold Scalar.select
  by_cases hx : x.toInt < 0
  · rw [if_pos (show IntOp.cmpi .slt x 0#32 = 1 from (cmpi_slt_iff x 0#32).mpr (by rw [e0]; exact hx))]
    have hs : (IntOp.addi x 50000#32).toInt = x.toInt + 50000 := by
      unfold IntOp.addi
      rw [BitVec.toInt_add, e2, Int.bmod_def]
      have : ((2 : Int) ^ 32) = 4294967296 := by decide
      simp only [this] at *
      split <;> omega
    exact key _ (by rw [hs]; omega) (by rw [hs]; omega)
  · have hc : ¬ IntOp.cmpi .slt x 0#32 = 1 := fun h => hx (by have := (cmpi_slt_iff x 0#32).mp h; rwa [e0] at this)
    rw [if_neg hc]
    exact key _ (by omega) (by omega)

end Cert.IdxRange
-- ==== Proof.MaskOne.lean ====
/-
  Index vectors whose entries all lie in `[-50000, 50000)` pass the filling gather's bounds test at every row.
-/
import proofs.«426576_j80547816669790_3_alg».proof.Proof.KerTerm
import proofs.«426576_j80547816669790_3_alg».proof.Proof.IdxRange

namespace Cert.KernelIdeal.KerTerm

open Cert.KernelIdeal Idealize.ShloMosaic

/-- Entry by entry: the normalised index of a word in `[-50000, 50000)` is in `[0, 49999]`. -/
theorem takeMask_one (a : IVec S400000 32)
    (h : ∀ i, IntOp.cmpi .sge (a i) 4294917296#32 = 1#1 ∧ IntOp.cmpi .slt (a i) 50000#32 = 1#1) (j : S400000x1.Idx) :
    takeMask a j = 1#1 := by
  unfold takeMask idxCol idxVec
  exact Cert.IdxRange.wrap_in_range _ (h _).1 (h _).2

end Cert.KernelIdeal.KerTerm
-- ==== Proof.KernelRun.lean ====
/-
  The fused program's run, read: where both index vectors pass the filling gathers' bounds test at every row, the result
  is the node features with the specification's array of messages — of the plainly gathered source and target rows —
  added onto the source rows; the inputs end unchanged.
-/
import proofs.«426576_j80547816669790_3_alg».proof.Proof.Tail
import proofs.«426576_j80547816669790_3_alg».proof.Proof.Region
import proofs.«426576_j80547816669790_3_alg».proof.Proof.Prelude
import proofs.«426576_j80547816669790_3_alg».proof.Proof.MaskOne

noncomputable section

namespace Cert.KernelIdeal.KernelRun

open Cert.KernelIdeal Cert.KernelIdeal.Gen Cert.KernelIdeal.KerTerm Idealize.ShloMosaic Idealize.ShloMosaic.ValueIdx
  Idealize.ShloMosaic.TcCoe Idealize.SL.Sem

variable (m : (ℓ : Loc nD τ sig) → Buf (Elt Ideal) ℓ) (ρ : Dev nD → PrngReg)

/-- The region's array of messages is the specification's, of the plain gathers and the inputs as given: the region finds
    the gathered rows in its first two arrays (the filling gathers, no row filled), the edge lengths as a column, and the
    weight matrices transposed block by block. -/
theorem Gk_eq (c : Dev nD) (hS : ∀ j, takeMask (in2 m c) j = 1#1) (hT : ∀ j, takeMask (in3 m c) j = 1#1) :
    Region.Gk m c = Cert.EdgeSpec.zSpec (rows (in0 m c) (in2 m c)) (rows (in0 m c) (in3 m c)) (in4 m c) (in5 m c)
      (in6 m c) (in7 m c) (in8 m c) (in9 m c) (in10 m c) (in11 m c) := by
  have e0 : Blocks.A0 m c = rows (in0 m c) (in2 m c) := (Prelude.V_v0 m c).trans (Prelude.takeFill_eq _ _ hS)
  have e1 : Blocks.A1 m c = rows (in0 m c) (in3 m c) := (Prelude.V_v1 m c).trans (Prelude.takeFill_eq _ _ hT)
  have e3 : Blocks.A3 m c = in5 m c := V_main_arg5 m c
  have e4 : Blocks.A4 m c = in6 m c := V_main_arg6 m c
  funext i
  obtain ⟨e, cc, rfl⟩ : ∃ (e : Fin 400000) (cc : Fin 128), i = ix2 e cc := ⟨i 0, i 1, eq_ix2 i⟩
  show Region.gkRow m c e cc = Cert.EdgeSpec.zRow _ _ _ _ _ _ _ _ _ _ e cc
  unfold Region.gkRow Cert.EdgeSpec.zRow
  rw [e0, e1, e3, e4]
  have h2 : Blocks.A2 m c (ix2 e 0) = in4 m c (ix1 e) := Prelude.V_v2_apply m c e
  have h5l : (fun k : Fin 128 => Blocks.A5 m c (ix2 k ⟨cc.val, by omega⟩)) = fun k => in10 m c (ix2 cc ⟨k.val, by omega⟩) :=
    funext fun k => Prelude.V_v12_lo m c k cc
  have h5h : (fun k : Fin 128 => Blocks.A5 m c (ix2 k ⟨128 + cc.val, by omega⟩)) = fun k => in11 m c (ix2 cc ⟨k.val, by omega⟩) :=
    funext fun k => Prelude.V_v12_hi m c k cc
  have h6l : (fun k : Fin 128 => Blocks.A6 m c (ix2 k ⟨cc.val, by omega⟩)) = fun k => in10 m c (ix2 cc ⟨128 + k.val, by omega⟩) :=
    funext fun k => Prelude.V_v16_lo m c k cc
  have h6h : (fun k : Fin 128 => Blocks.A6 m c (ix2 k ⟨128 + cc.val, by omega⟩)) = fun k => in11 m c (ix2 cc ⟨128 + k.val, by omega⟩) :=
    funext fun k => Prelude.V_v16_hi m c k cc
  have h7l : (fun k : Fin 128 => Blocks.A7 m c (ix2 k ⟨cc.val, by omega⟩)) = fun k => in10 m c (ix2 cc ⟨256 + k.val, by omega⟩) :=
    funext fun k => Prelude.V_v20_lo m c k cc
  have h7h : (fun k : Fin 128 => Blocks.A7 m c (ix2 k ⟨128 + cc.val, by omega⟩)) = fun k => in11 m c (ix2 cc ⟨256 + k.val, by omega⟩) :=
    funext fun k => Prelude.V_v20_hi m c k cc
  have h8 : (fun k : Fin 128 => Blocks.A8 m c (ix2 k cc)) = fun k => in7 m c (ix2 cc k) :=
    funext fun k => Prelude.V_v22 m c k cc
  have h9l : (fun k : Fin 26 => Blocks.A9 m c (ix2 k ⟨cc.val, by omega⟩)) = fun k => in8 m c (ix2 cc k) :=
    funext fun k => Prelude.V_v26_lo m c k cc
  have h9h : (fun k : Fin 26 => Blocks.A9 m c (ix2 k ⟨128 + cc.val, by omega⟩)) = fun k => in9 m c (ix2 cc k) :=
    funext fun k => Prelude.V_v26_hi m c k cc
  rw [h2, h5l, h5h, h6l, h6h, h7l, h7h, h8, h9l, h9h]

/-- The run. -/
theorem run (hS : ∀ c j, takeMask (in2 m c) j = 1#1) (hT : ∀ c j, takeMask (in3 m c) j = 1#1) :
    θ_run defs (onTc (τ := τ) (main (F := Ideal))) ⟨m, fun _ => 0, ρ⟩ fun r => ∀ c : Dev nD,
      r.2.mem ((c.tc : Thread nD τ).loc main_v34)
          = Tail.tailFn (in0 m c) (in2 m c)
              (Cert.EdgeSpec.zSpec (rows (in0 m c) (in2 m c)) (rows (in0 m c) (in3 m c)) (in4 m c) (in5 m c) (in6 m c)
                (in7 m c) (in8 m c) (in9 m c) (in10 m c) (in11 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v34 (Pipeline.mem_restRefs_of main_v34 (by decide) (by decide))).trans
        ((Tail.tail_eq m c).trans (congrArg (Tail.tailFn (in0 m c) (in2 m c))
          ((Region.final m c).trans (Gk_eq m c (hS c) (hT c))))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans ((((dats m) 0 c).arrAt_in 3 rfl _).trans ((A_eq m c 3).trans (V_main_arg5 m c))),
      ((h c).1 4).trans ((((dats m) 0 c).arrAt_in 4 rfl _).trans ((A_eq m c 4).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.KernelRun

end
-- ==== Proof.RefTerm.lean ====
/-
  What the reference computes, as one term of its inputs: the index column, the gathered rows, the array of messages
  (one per edge and column), and the result, the node features with every edge's message added onto its source's row.
-/
import proofs.«426576_j80547816669790_3_alg».proof.Proof.Gen.ReferenceIdeal
import Idealize.ShloMosaic.PureOps.Ideal

noncomputable section

namespace Cert.ReferenceIdeal.RefTerm

open Cert.ReferenceIdeal Idealize.ShloMosaic
open Cert.ReferenceIdeal.Facts₀ Cert.ReferenceIdeal.Facts

/-- An index vector with its negative entries counted from the end of the 50000 rows, as a column of start indices. -/
def idxCol (a : IVec S400000 32) : IVec S400000x1 32 :=
  broadcastInDim S400000x1 ![0] bcast_S400000_S400000x1_0
    (select (cmpi .slt a (broadcastInDim S400000 ![] bcast_S_S400000 (constantI S_ 32 0#32)))
      (addi a (broadcastInDim S400000 ![] bcast_S_S400000 (constantI S_ 32 50000#32))) a)

/-- The rows of `x` the index vector names. -/
def rows (x : FVec Ideal S50000x128 .f32) (a : IVec S400000 32) : FVec Ideal S400000x128 .f32 :=
  Host.gather gather_S50000x128_S400000x1_S400000x128_1_0_n_n_0_1_1128 x (idxCol a)

/-- The constant array of ones. -/
def ones : FVec Ideal S400000x128 .f32 :=
  broadcastInDim S400000x128 ![] bcast_S_S400000x128 (constant (F := Ideal) S_ .f32 0x3F800000#32)

/-- The constant array of zeros. -/
def zeros : FVec Ideal S400000x128 .f32 :=
  broadcastInDim S400000x128 ![] bcast_S_S400000x128 (constant (F := Ideal) S_ .f32 0x00000000#32)

/-- The logistic function as the reference spells it: `1 / (1 + exp (−x))`. -/
def sigm (x : FVec Ideal S400000x128 .f32) : FVec Ideal S400000x128 .f32 :=
  Host.divf ones (addf ones (Host.exp (Host.negf x)))

/-- ELU as the reference spells it: `x` where `x > 0`, else `1 · expm1 (x where not x > 0, else 0)`. -/
def eluR (x : FVec Ideal S400000x128 .f32) : FVec Ideal S400000x128 .f32 :=
  select (cmpf .ogt x zeros) x
    (mulf ones (Host.expm1 (select (cmpf .ogt x zeros)
      (broadcastInDim S400000x128 ![] bcast_S_S400000x128 (id (constant (F := Ideal) S_ .f32 0x00000000#32))) x)))

/-- The three blocks of an edge's features side by side: source row, target row, their difference over the edge's length. -/
def feats (ni nj : FVec Ideal S400000x128 .f32) (a4 : FVec Ideal S400000 .f32) : FVec Ideal S400000x384 .f32 :=
  concatenate S400000x384 1
    [⟨S400000x128, ni⟩, ⟨S400000x128, nj⟩,
      ⟨S400000x128, Host.divf (subf nj ni)
        (broadcastInDim S400000x128 ![0, 1] bcast_S400000x1_S400000x128_0_1 (broadcastInDim S400000x1 ![0] bcast_S400000_S400000x1_0 a4))⟩]
    concatenates_S400000x128_S400000x128_S400000x128_S400000x384_d1

/-- The array of messages from the gathered rows `ni`, `nj` and the other inputs. -/
def refZ (ni nj : FVec Ideal S400000x128 .f32) (a4 : FVec Ideal S400000 .f32) (a5 : FVec Ideal S400000x128 .f32)
    (a6 : FVec Ideal S400000x26 .f32) (a7 : FVec Ideal S128x128 .f32) (a8 a9 : FVec Ideal S128x26 .f32)
    (a10 a11 : FVec Ideal S128x384 .f32) : FVec Ideal S400000x128 .f32 :=
  mulf
    (mulf
      (sigm (Host.dotGeneral dot_S400000x384_S384x128_S400000x128_1_0_0_1_n_n none (feats ni nj a4)
        (transpose S384x128 [1, 0] a10 transposes_S128x384_S384x128_1_0)))
      (eluR (Host.dotGeneral dot_S400000x384_S384x128_S400000x128_1_0_0_1_n_n none (feats ni nj a4)
        (transpose S384x128 [1, 0] a11 transposes_S128x384_S384x128_1_0))))
    (addf
      (Host.dotGeneral dot_S400000x128_S128x128_S400000x128_1_0_0_1_n_n none a5
        (transpose S128x128 [1, 0] a7 transposes_S128x128_S128x128_1_0))
      (mulf
        (Host.dotGeneral dot_S400000x26_S26x128_S400000x128_1_0_0_1_n_n none a6
          (transpose S26x128 [1, 0] a8 transposes_S128x26_S26x128_1_0))
        (sigm (Host.dotGeneral dot_S400000x26_S26x128_S400000x128_1_0_0_1_n_n none a6
          (transpose S26x128 [1, 0] a9 transposes_S128x26_S26x128_1_0)))))

/-- The reference's result from its inputs. -/
def refOut (a0 : FVec Ideal S50000x128 .f32) (a2 a3 : IVec S400000 32) (a4 : FVec Ideal S400000 .f32)
    (a5 : FVec Ideal S400000x128 .f32) (a6 : FVec Ideal S400000x26 .f32) (a7 : FVec Ideal S128x128 .f32)
    (a8 a9 : FVec Ideal S128x26 .f32) (a10 a11 : FVec Ideal S128x384 .f32) : FVec Ideal S50000x128 .f32 :=
  Host.scatterAdd scatter_S50000x128_S400000x1_S400000x128_1_0_0_1 a0 (idxCol a2)
    (refZ (rows a0 a2) (rows a0 a3) a4 a5 a6 a7 a8 a9 a10 a11)

end Cert.ReferenceIdeal.RefTerm

end
-- ==== Proof.RefRun.lean ====
/-
  The reference program's run: every weakly fair execution ends, its result at the term `RefTerm.refOut` of the
  inputs as launched, the inputs unchanged.
-/
import proofs.«426576_j80547816669790_3_alg».proof.Proof.Gen.ReferenceIdeal
import proofs.«426576_j80547816669790_3_alg».proof.Proof.RefTerm
import Idealize.ShloMosaic.Lib.StableHlo.Run

noncomputable section

namespace Cert.ReferenceIdeal.RefRun

open Cert.ReferenceIdeal Cert.ReferenceIdeal.RefTerm Idealize.ShloMosaic Idealize.ShloMosaic.TcCoe Idealize.SL.Sem
  Idealize.ShloMosaic.StableHlo

open Cert.ReferenceIdeal.Facts₀ Cert.ReferenceIdeal.Facts

section Line

variable {F : FTy → Type} [FloatOps F]

/-- The program's operations in order, the call of the ELU function unfolded where it stands: the index column of the
    sources (a negative index counted from the end), the gathered source rows; the same for the targets; the difference
    over the edge length; the three blocks side by side; the gate's product and its logistic; the second product and,
    in the call's fifteen lines (the two selections it calls unfolded in turn), its ELU; the three remaining products
    and the second logistic; the messages; the sources' index column once more and the scatter-add. -/
abbrev ops : List (HloOp τ sig (Elt F)) :=
  [ nullary main_c (constantI S_ 32 0#32),
    unary main_c main_v0 (broadcastInDim S400000 ![] bcast_S_S400000),
    binary main_arg2 main_v0 main_v1 (cmpi .slt),
    nullary main_c_0 (constantI S_ 32 50000#32),
    unary main_c_0 main_v2 (broadcastInDim S400000 ![] bcast_S_S400000),
    binary main_arg2 main_v2 main_v3 addi,
    ternary main_v1 main_v3 main_arg2 main_v4 select,
    unary main_v4 main_v5 (broadcastInDim S400000x1 ![0] bcast_S400000_S400000x1_0),
    binary main_arg0 main_v5 main_v6 (fun x i => Host.gather gather_S50000x128_S400000x1_S400000x128_1_0_n_n_0_1_1128 x i),
    nullary main_c_1 (constantI S_ 32 0#32),
    unary main_c_1 main_v7 (broadcastInDim S400000 ![] bcast_S_S400000),
    binary main_arg3 main_v7 main_v8 (cmpi .slt),
    nullary main_c_2 (constantI S_ 32 50000#32),
    unary main_c_2 main_v9 (broadcastInDim S400000 ![] bcast_S_S400000),
    binary main_arg3 main_v9 main_v10 addi,
    ternary main_v8 main_v10 main_arg3 main_v11 select,
    unary main_v11 main_v12 (broadcastInDim S400000x1 ![0] bcast_S400000_S400000x1_0),
    binary main_arg0 main_v12 main_v13 (fun x i => Host.gather gather_S50000x128_S400000x1_S400000x128_1_0_n_n_0_1_1128 x i),
    binary main_v13 main_v6 main_v14 subf,
    unary main_arg4 main_v15 (broadcastInDim S400000x1 ![0] bcast_S400000_S400000x1_0),
    unary main_v15 main_v16 (broadcastInDim S400000x128 ![0, 1] bcast_S400000x1_S400000x128_0_1),
    binary main_v14 main_v16 main_v17 Host.divf,
    nary ![main_v6, main_v13, main_v17] main_v18 (fun u => concatenate S400000x384 1 [⟨S400000x128, u 0⟩, ⟨S400000x128, u 1⟩, ⟨S400000x128, u 2⟩] concatenates_S400000x128_S400000x128_S400000x128_S400000x384_d1),
    unary main_arg10 main_v19 (transpose S384x128 [1, 0] · transposes_S128x384_S384x128_1_0),
    binary main_v18 main_v19 main_v20 (fun l r => Host.dotGeneral dot_S400000x384_S384x128_S400000x128_1_0_0_1_n_n none l r),
    unary main_v20 main_v21 Host.negf,
    unary main_v21 main_v22 Host.exp,
    nullary main_cst (constant S_ .f32 0x3F800000#32),
    unary main_cst main_v23 (broadcastInDim S400000x128 ![] bcast_S_S400000x128),
    binary main_v23 main_v22 main_v24 addf,
    nullary main_cst_3 (constant S_ .f32 0x3F800000#32),
    unary main_cst_3 main_v25 (broadcastInDim S400000x128 ![] bcast_S_S400000x128),
    binary main_v25 main_v24 main_v26 Host.divf,
    unary main_arg11 main_v27 (transpose S384x128 [1, 0] · transposes_S128x384_S384x128_1_0),
    binary main_v18 main_v27 main_v28 (fun l r => Host.dotGeneral dot_S400000x384_S384x128_S400000x128_1_0_0_1_n_n none l r),
    TRef.nullary main_call0.cst (constant S_ .f32 0x00000000#32),
    TRef.unary main_call0.cst main_call0.v0 (broadcastInDim S400000x128 ![] bcast_S_S400000x128),
    TRef.binary (.of main_v28) main_call0.v0 main_call0.v1 (cmpf .ogt),
    TRef.nullary main_call0.cst_0 (constant S_ .f32 0x00000000#32),
    TRef.unary main_call0.cst_0 main_call0.v2 (broadcastInDim S400000x128 ![] bcast_S_S400000x128),
    TRef.binary (.of main_v28) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S400000x128 ![] bcast_S_S400000x128),
    TRef.ternary main_call0.v3 main_call0.call0.v1 (.of main_v28) main_call0.call0.v2 select,
    TRef.unary main_call0.call0.v2 main_call0.v5 Host.expm1,
    TRef.nullary main_call0.cst_2 (constant S_ .f32 0x3F800000#32),
    TRef.unary main_call0.cst_2 main_call0.v6 (broadcastInDim S400000x128 ![] bcast_S_S400000x128),
    TRef.binary main_call0.v6 main_call0.v5 main_call0.v7 mulf,
    TRef.ternary main_call0.v1 (.of main_v28) main_call0.v7 main_call0.call1.v0 select,
    unary main_arg7 main_v30 (transpose S128x128 [1, 0] · transposes_S128x128_S128x128_1_0),
    binary main_arg5 main_v30 main_v31 (fun l r => Host.dotGeneral dot_S400000x128_S128x128_S400000x128_1_0_0_1_n_n none l r),
    unary main_arg8 main_v32 (transpose S26x128 [1, 0] · transposes_S128x26_S26x128_1_0),
    binary main_arg6 main_v32 main_v33 (fun l r => Host.dotGeneral dot_S400000x26_S26x128_S400000x128_1_0_0_1_n_n none l r),
    unary main_arg9 main_v34 (transpose S26x128 [1, 0] · transposes_S128x26_S26x128_1_0),
    binary main_arg6 main_v34 main_v35 (fun l r => Host.dotGeneral dot_S400000x26_S26x128_S400000x128_1_0_0_1_n_n none l r),
    unary main_v35 main_v36 Host.negf,
    unary main_v36 main_v37 Host.exp,
    nullary main_cst_4 (constant S_ .f32 0x3F800000#32),
    unary main_cst_4 main_v38 (broadcastInDim S400000x128 ![] bcast_S_S400000x128),
    binary main_v38 main_v37 main_v39 addf,
    nullary main_cst_5 (constant S_ .f32 0x3F800000#32),
    unary main_cst_5 main_v40 (broadcastInDim S400000x128 ![] bcast_S_S400000x128),
    binary main_v40 main_v39 main_v41 Host.divf,
    binary main_v33 main_v41 main_v42 mulf,
    binary main_v26 main_v29 main_v43 mulf,
    binary main_v31 main_v42 main_v44 addf,
    binary main_v43 main_v44 main_v45 mulf,
    nullary main_c_6 (constantI S_ 32 0#32),
    unary main_c_6 main_v46 (broadcastInDim S400000 ![] bcast_S_S400000),
    binary main_arg2 main_v46 main_v47 (cmpi .slt),
    nullary main_c_7 (constantI S_ 32 50000#32),
    unary main_c_7 main_v48 (broadcastInDim S400000 ![] bcast_S_S400000),
    binary main_arg2 main_v48 main_v49 addi,
    ternary main_v47 main_v49 main_arg2 main_v50 select,
    unary main_v50 main_v51 (broadcastInDim S400000x1 ![0] bcast_S400000_S400000x1_0),
    ternary main_arg0 main_v51 main_v45 main_v52 (fun x i u => Host.scatterAdd scatter_S50000x128_S400000x1_S400000x128_1_0_0_1 x i u) ]

-- seventy-seven binds re-associated: the rewriting under the chain recurses once per statement
set_option maxRecDepth 4096 in
set_option maxHeartbeats 4000000 in
/-- The program is that straight line: its two windows, the ELU function and the two selections it calls unfolded where
    they are called and the call's record at its fields, both sides are one chain of steps once sequencing is
    re-associated. -/
theorem main_eq (c : Dev nD) : main (F := F) c = seq ops := by
  simp only [main, main_part0, main_part1, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    unary_bufs_sub .., binary_bufs_sub .., nary_bufs_sub .., unary_bufs_sub .., binary_bufs_sub .., unary_bufs_sub ..,
    unary_bufs_sub .., nullary_bufs_sub .., unary_bufs_sub .., binary_bufs_sub .., nullary_bufs_sub ..,
    unary_bufs_sub .., binary_bufs_sub .., unary_bufs_sub .., binary_bufs_sub .., nullary_bufs_sub ..,
    unary_bufs_sub .., binary_bufs_sub .., nullary_bufs_sub .., unary_bufs_sub .., binary_bufs_sub ..,
    nullary_bufs_sub .., unary_bufs_sub .., unary_bufs_sub .., ternary_bufs_sub .., unary_bufs_sub ..,
    nullary_bufs_sub .., unary_bufs_sub .., binary_bufs_sub .., ternary_bufs_sub .., unary_bufs_sub ..,
    binary_bufs_sub .., unary_bufs_sub .., binary_bufs_sub .., unary_bufs_sub .., binary_bufs_sub ..,
    unary_bufs_sub .., unary_bufs_sub .., nullary_bufs_sub .., unary_bufs_sub .., binary_bufs_sub ..,
    nullary_bufs_sub .., unary_bufs_sub .., binary_bufs_sub .., binary_bufs_sub .., binary_bufs_sub ..,
    binary_bufs_sub .., binary_bufs_sub .., nullary_bufs_sub .., unary_bufs_sub .., binary_bufs_sub ..,
    nullary_bufs_sub .., unary_bufs_sub .., binary_bufs_sub .., ternary_bufs_sub .., unary_bufs_sub ..,
    ternary_bufs_sub ..⟩

/-- The references the line writes, one per operation, in order: every value of the program and of the call; no
    argument is among them. -/
abbrev written : List (Ref sig .tc) :=
  [main_c, main_v0, main_v1, main_c_0, main_v2, main_v3, main_v4, main_v5, main_v6, main_c_1, main_v7, main_v8,
    main_c_2, main_v9, main_v10, main_v11, main_v12, main_v13, main_v14, main_v15, main_v16, main_v17, main_v18,
    main_v19, main_v20, main_v21, main_v22, main_cst, main_v23, main_v24, main_cst_3, main_v25, main_v26, main_v27,
    main_v28, main_call0_cst, main_call0_v0, main_call0_v1, main_call0_cst_0, main_call0_v2, main_call0_v3,
    main_call0_cst_1, main_call0_call0_v0, main_call0_call0_v1, main_call0_v4, main_call0_v5, main_call0_cst_2,
    main_call0_v6, main_call0_v7, main_v29, main_v30, main_v31, main_v32, main_v33, main_v34, main_v35, main_v36,
    main_v37, main_cst_4, main_v38, main_v39, main_cst_5, main_v40, main_v41, main_v42, main_v43, main_v44, main_v45,
    main_c_6, main_v46, main_v47, main_c_7, main_v48, main_v49, main_v50, main_v51, main_v52]

/-- An operation whose one written buffer is among the list writes inside the list. -/
theorem writes_sub (y : Ref sig .tc) {op : HloOp τ sig (Elt F)} (h : op.writes = {Proc.devRef .tc y}) (hy : y ∈ written) :
    op.writes ⊆ (written.map (Proc.devRef (τ := τ) .tc)).toFinset := by
  rw [h, Finset.singleton_subset_iff, List.mem_toFinset]
  exact List.mem_map.mpr ⟨y, hy, rfl⟩

theorem ops_writes :
    (ops : List (HloOp τ sig (Elt F))).Forall fun op => op.writes ⊆ (written.map (Proc.devRef (τ := τ) .tc)).toFinset :=
  ⟨writes_sub main_c rfl (by decide), writes_sub main_v0 rfl (by decide), writes_sub main_v1 rfl (by decide),
    writes_sub main_c_0 rfl (by decide), writes_sub main_v2 rfl (by decide), writes_sub main_v3 rfl (by decide),
    writes_sub main_v4 rfl (by decide), writes_sub main_v5 rfl (by decide), writes_sub main_v6 rfl (by decide),
    writes_sub main_c_1 rfl (by decide), writes_sub main_v7 rfl (by decide), writes_sub main_v8 rfl (by decide),
    writes_sub main_c_2 rfl (by decide), writes_sub main_v9 rfl (by decide), writes_sub main_v10 rfl (by decide),
    writes_sub main_v11 rfl (by decide), writes_sub main_v12 rfl (by decide), writes_sub main_v13 rfl (by decide),
    writes_sub main_v14 rfl (by decide), writes_sub main_v15 rfl (by decide), writes_sub main_v16 rfl (by decide),
    writes_sub main_v17 rfl (by decide), writes_sub main_v18 rfl (by decide), writes_sub main_v19 rfl (by decide),
    writes_sub main_v20 rfl (by decide), writes_sub main_v21 rfl (by decide), writes_sub main_v22 rfl (by decide),
    writes_sub main_cst rfl (by decide), writes_sub main_v23 rfl (by decide), writes_sub main_v24 rfl (by decide),
    writes_sub main_cst_3 rfl (by decide), writes_sub main_v25 rfl (by decide), writes_sub main_v26 rfl (by decide),
    writes_sub main_v27 rfl (by decide), writes_sub main_v28 rfl (by decide),
    writes_sub main_call0_cst rfl (by decide), writes_sub main_call0_v0 rfl (by decide),
    writes_sub main_call0_v1 rfl (by decide), writes_sub main_call0_cst_0 rfl (by decide),
    writes_sub main_call0_v2 rfl (by decide), writes_sub main_call0_v3 rfl (by decide),
    writes_sub main_call0_cst_1 rfl (by decide), writes_sub main_call0_call0_v0 rfl (by decide),
    writes_sub main_call0_call0_v1 rfl (by decide), writes_sub main_call0_v4 rfl (by decide),
    writes_sub main_call0_v5 rfl (by decide), writes_sub main_call0_cst_2 rfl (by decide),
    writes_sub main_call0_v6 rfl (by decide), writes_sub main_call0_v7 rfl (by decide),
    writes_sub main_v29 rfl (by decide), writes_sub main_v30 rfl (by decide), writes_sub main_v31 rfl (by decide),
    writes_sub main_v32 rfl (by decide), writes_sub main_v33 rfl (by decide), writes_sub main_v34 rfl (by decide),
    writes_sub main_v35 rfl (by decide), writes_sub main_v36 rfl (by decide), writes_sub main_v37 rfl (by decide),
    writes_sub main_cst_4 rfl (by decide), writes_sub main_v38 rfl (by decide), writes_sub main_v39 rfl (by decide),
    writes_sub main_cst_5 rfl (by decide), writes_sub main_v40 rfl (by decide), writes_sub main_v41 rfl (by decide),
    writes_sub main_v42 rfl (by decide), writes_sub main_v43 rfl (by decide), writes_sub main_v44 rfl (by decide),
    writes_sub main_v45 rfl (by decide), writes_sub main_c_6 rfl (by decide), writes_sub main_v46 rfl (by decide),
    writes_sub main_v47 rfl (by decide), writes_sub main_c_7 rfl (by decide), writes_sub main_v48 rfl (by decide),
    writes_sub main_v49 rfl (by decide), writes_sub main_v50 rfl (by decide), writes_sub main_v51 rfl (by decide),
    writes_sub main_v52 rfl (by decide)⟩

/-- A reference the line does not write, an argument for one, holds at the end what it held at the start. -/
theorem kept (V : Valuation τ sig (Elt F)) {r : Ref sig .tc} (hr : r ∉ written) :
    after ops V (Proc.devRef .tc r) = V (Proc.devRef .tc r) :=
  after_of_writes_sub ops V ops_writes hr

end Line

attribute [local irreducible] Host.gather Host.scatterAdd in
set_option maxRecDepth 16384 in
set_option maxHeartbeats 4000000 in
/-- The fold at the result buffer is `refOut` of the arguments by computation: the fold unrolled, each operation's
    result at a buffer is its function's value where the buffer is the one it writes and what was there before
    otherwise, which of the two being decided on the literal references; the call's typed references transport along
    equations that are reflexivity; the three operands of the concatenation are read at the literal positions. The
    gather and the scatter-add stay folded meanwhile (the equation never looks inside them). -/
theorem out_eq (V : Valuation τ sig (Elt Ideal)) :
    after (ops (F := Ideal)) V (Proc.devRef .tc main_v52)
      = refOut (V (Proc.devRef .tc main_arg0)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  simp only [after_cons, after_nil]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
          = refOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v52).trans (out_eq _),
      (h c main_arg0).trans (kept _ (by decide)), (h c main_arg1).trans (kept _ (by decide)),
      (h c main_arg2).trans (kept _ (by decide)), (h c main_arg3).trans (kept _ (by decide)),
      (h c main_arg4).trans (kept _ (by decide)), (h c main_arg5).trans (kept _ (by decide)),
      (h c main_arg6).trans (kept _ (by decide)), (h c main_arg7).trans (kept _ (by decide)),
      (h c main_arg8).trans (kept _ (by decide)), (h c main_arg9).trans (kept _ (by decide)),
      (h c main_arg10).trans (kept _ (by decide)), (h c main_arg11).trans (kept _ (by decide))⟩)
    (run_seq scopedRefs_eq scopedSems_eq defs main (fun _ => ops) main_eq (fun _ => ops_sub) m ρ)

end Cert.ReferenceIdeal.RefRun

end
-- ==== Proof.RefValue.lean ====
/-
  The reference's array of messages is the specification's: entry by entry, the three-block feature row against a row of
  a wide weight matrix is the sum of the three blocks' sums, the logistic function and ELU as the reference spells them
  are the specification's, and the three small products are read row against row.
-/
import proofs.«426576_j80547816669790_3_alg».proof.Proof.RefTerm
import proofs.«426576_j80547816669790_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost
import Mathlib.Algebra.BigOperators.Fin

noncomputable section

open scoped BigOperators

namespace Cert.ReferenceIdeal.RefValue

open Cert.ReferenceIdeal Cert.ReferenceIdeal.RefTerm Idealize.ShloMosaic Idealize.ShloMosaic.ValueIdx
open Cert.ReferenceIdeal.Facts₀ Cert.ReferenceIdeal.Facts

/-! ## The three products and the three transposes, read at an entry -/

/-- The wide product read at an entry: row of the left factor against column of the right one. -/
theorem dot384_apply (l : FVec Ideal S400000x384 .f32) (r : FVec Ideal S384x128 .f32) (e : Fin 400000) (c : Fin 128) :
    Host.dotGeneral (F := Ideal) dot_S400000x384_S384x128_S400000x128_1_0_0_1_n_n none l r (ix2 e c)
      = ∑ k : Fin 384, l (ix2 e k) * r (ix2 k c) :=
  StackMember.dotGeneral_plain_apply (m := 400000) (n := 128) none l r e c

/-- The square product read at an entry. -/
theorem dot128_apply (l : FVec Ideal S400000x128 .f32) (r : FVec Ideal S128x128 .f32) (e : Fin 400000) (c : Fin 128) :
    Host.dotGeneral (F := Ideal) dot_S400000x128_S128x128_S400000x128_1_0_0_1_n_n none l r (ix2 e c)
      = ∑ k : Fin 128, l (ix2 e k) * r (ix2 k c) :=
  StackMember.dotGeneral_plain_apply (m := 400000) (n := 128) none l r e c

/-- The narrow product read at an entry. -/
theorem dot26_apply (l : FVec Ideal S400000x26 .f32) (r : FVec Ideal S26x128 .f32) (e : Fin 400000) (c : Fin 128) :
    Host.dotGeneral (F := Ideal) dot_S400000x26_S26x128_S400000x128_1_0_0_1_n_n none l r (ix2 e c)
      = ∑ k : Fin 26, l (ix2 e k) * r (ix2 k c) :=
  StackMember.dotGeneral_plain_apply (m := 400000) (n := 128) none l r e c

/-- A transposed weight matrix reads, at `(k, c)`, the matrix at `(c, k)`: the wide one … -/
theorem tr384_apply (w : FVec Ideal S128x384 .f32) (k : Fin 384) (c : Fin 128) :
    transpose S384x128 [1, 0] w transposes_S128x384_S384x128_1_0 (ix2 k c) = w (ix2 c k) :=
  transpose_ix2_apply w _ k c

/-- … the square one … -/
theorem tr128_apply (w : FVec Ideal S128x128 .f32) (k : Fin 128) (c : Fin 128) :
    transpose S128x128 [1, 0] w transposes_S128x128_S128x128_1_0 (ix2 k c) = w (ix2 c k) :=
  transpose_ix2_apply w _ k c

/-- … and the narrow one. -/
theorem tr26_apply (w : FVec Ideal S128x26 .f32) (k : Fin 26) (c : Fin 128) :
    transpose S26x128 [1, 0] w transposes_S128x26_S26x128_1_0 (ix2 k c) = w (ix2 c k) :=
  transpose_ix2_apply w _ k c

/-! ## The length column, the split of a sum of 384 terms, and the two activation functions -/

/-- The edge lengths spread along each row of 128 columns, read at an entry. -/
theorem lenCol_apply (a4 : FVec Ideal S400000 .f32) (e : Fin 400000) (k : Fin 128) :
    broadcastInDim S400000x128 ![0, 1] bcast_S400000x1_S400000x128_0_1
      (broadcastInDim S400000x1 ![0] bcast_S400000_S400000x1_0 a4) (ix2 e k) = a4 (ix1 e) := by
  refine (broadcastInDim_apply _ _ _ (ix2 e k) (ix2 e (0 : Fin 1)) (fun a => ?_)).trans ?_
  · match a with
    | ⟨0, _⟩ => rfl
    | ⟨1, _⟩ => rfl
  · exact broadcastInDim_apply _ _ _ _ (ix1 e) (fun a => match a with | ⟨0, _⟩ => rfl)

/-- A sum over 384 terms is the sum of its three blocks of 128. -/
theorem sum384 {M : Type*} [AddCommMonoid M] (f : Fin 384 → M) :
    ∑ k : Fin 384, f k = (∑ k : Fin 128, f ⟨k.val, by omega⟩ + ∑ k : Fin 128, f ⟨128 + k.val, by omega⟩)
      + ∑ k : Fin 128, f ⟨256 + k.val, by omega⟩ := by
  show ∑ k : Fin ((128 + 128) + 128), f k = _
  rw [Fin.sum_univ_add, Fin.sum_univ_add]
  rfl

/-- The constant array of ones reads `1` everywhere … -/
theorem ones_apply (i : S400000x128.Idx) : (ones i : EReal) = 1 := by
  unfold ones
  rw [broadcastInDim_scalar_apply, constant_apply, Ideal.ofBits_one_f32]

/-- … and the array of zeros `0`. -/
theorem zeros_apply (i : S400000x128.Idx) : (zeros i : EReal) = 0 := by
  unfold zeros
  rw [broadcastInDim_scalar_apply, constant_apply, Ideal.ofBits_zero_f32]

/-- `1 / (1 + exp (−x))` is the logistic function, by its definition. -/
theorem sigm_apply (x : FVec Ideal S400000x128 .f32) (i : S400000x128.Idx) : sigm x i = Ideal.logistic (x i) := by
  show Ideal.div (ones i) (ones i + Ideal.exp (-(x i))) = _
  rw [ones_apply]; rfl

/-- ELU as the reference spells it is the specification's: above zero both are `x`; at and below zero the inner select
    keeps `x`, `1 · (exp x − 1) = exp x − 1`, and `min x 0 = x`. -/
theorem eluR_apply (x : FVec Ideal S400000x128 .f32) (i : S400000x128.Idx) : eluR x i = Cert.EdgeSpec.elu (x i) := by
  unfold eluR Cert.EdgeSpec.elu
  rw [select_apply, mulf_apply, cmpf_apply, Ideal.cmpf_def, zeros_apply, ones_apply, one_mul]
  by_cases h : 0 < x i
  · have hc : Ideal.cmp .ogt (x i) 0 = 1#1 := by simp [Ideal.cmp, h]
    rw [hc, select_one, if_pos h]
  · have hc : Ideal.cmp .ogt (x i) 0 = 0#1 := by simp [Ideal.cmp, h]
    rw [hc, select_zero, if_neg h]
    show Ideal.exp (Scalar.select (Ideal.cmp .ogt (x i) (zeros i)) _ (x i)) - 1 = _
    rw [zeros_apply, hc, select_zero, min_eq_left (not_lt.mp h)]

/-! ## The feature row's three blocks, and the wide product as three sums -/

/-- The feature row's first block is the source row. -/
theorem feats_lo (ni nj : FVec Ideal S400000x128 .f32) (a4 : FVec Ideal S400000 .f32) (e : Fin 400000) (k : Fin 128) :
    feats ni nj a4 (ix2 e (⟨k.val, by omega⟩ : Fin 384)) = ni (ix2 e k) := by
  unfold feats
  refine concatenate_apply_piece (t := S400000x384) _ _ _ _ 0 ?_ S400000x128 ni ?_ rfl 0 ?_ (ix2 e k) (fun b hb => ?_) ?_
  · exact (by decide : 0 < 3)
  · rfl
  · rfl
  · match b with
    | ⟨0, _⟩ => rfl
    | ⟨1, _⟩ => exact absurd rfl hb
  · show 0 + k.val = k.val
    omega

/-- The second block is the target row. -/
theorem feats_mid (ni nj : FVec Ideal S400000x128 .f32) (a4 : FVec Ideal S400000 .f32) (e : Fin 400000) (k : Fin 128) :
    feats ni nj a4 (ix2 e (⟨128 + k.val, by omega⟩ : Fin 384)) = nj (ix2 e k) := by
  unfold feats
  refine concatenate_apply_piece (t := S400000x384) _ _ _ _ 1 ?_ S400000x128 nj ?_ rfl 128 ?_ (ix2 e k) (fun b hb => ?_) ?_
  · exact (by decide : 1 < 3)
  · rfl
  · rfl
  · match b with
    | ⟨0, _⟩ => rfl
    | ⟨1, _⟩ => exact absurd rfl hb
  · rfl

/-- The third block is the difference of the two rows over the edge's length. -/
theorem feats_hi (ni nj : FVec Ideal S400000x128 .f32) (a4 : FVec Ideal S400000 .f32) (e : Fin 400000) (k : Fin 128) :
    feats ni nj a4 (ix2 e (⟨256 + k.val, by omega⟩ : Fin 384))
      = Ideal.div (nj (ix2 e k) - ni (ix2 e k)) (a4 (ix1 e)) := by
  unfold feats
  refine (concatenate_apply_piece (t := S400000x384) _ _ _ _ 2 ?_ S400000x128
    (Host.divf (F := Ideal) (subf nj ni) (broadcastInDim S400000x128 ![0, 1] bcast_S400000x1_S400000x128_0_1
      (broadcastInDim S400000x1 ![0] bcast_S400000_S400000x1_0 a4)))
    ?_ rfl 256 ?_ (ix2 e k) (fun b hb => ?_) ?_).trans ?_
  · exact (by decide : 2 < 3)
  · rfl
  · rfl
  · match b with
    | ⟨0, _⟩ => rfl
    | ⟨1, _⟩ => exact absurd rfl hb
  · rfl
  · rw [hostDivf_apply, subf_apply, lenCol_apply]

/-- The product of the feature rows with a wide weight matrix, read at an entry: the three blocks' sums. -/
theorem wide_apply (ni nj : FVec Ideal S400000x128 .f32) (a4 : FVec Ideal S400000 .f32) (w : FVec Ideal S128x384 .f32)
    (e : Fin 400000) (c : Fin 128) :
    Host.dotGeneral (F := Ideal) dot_S400000x384_S384x128_S400000x128_1_0_0_1_n_n none (feats ni nj a4)
        (transpose S384x128 [1, 0] w transposes_S128x384_S384x128_1_0) (ix2 e c)
      = (∑ k : Fin 128, ni (ix2 e k) * w (ix2 c (⟨k.val, by omega⟩ : Fin 384))
          + ∑ k : Fin 128, nj (ix2 e k) * w (ix2 c (⟨128 + k.val, by omega⟩ : Fin 384)))
        + ∑ k : Fin 128, Ideal.div (nj (ix2 e k) - ni (ix2 e k)) (a4 (ix1 e)) * w (ix2 c (⟨256 + k.val, by omega⟩ : Fin 384)) := by
  rw [dot384_apply, sum384]
  simp only [feats_lo, feats_mid, feats_hi]
  refine congrArg₂ (· + ·) (congrArg₂ (· + ·) ?_ ?_) ?_
  · refine Finset.sum_congr rfl fun k _ => ?_
    rw [tr384_apply]
  · refine Finset.sum_congr rfl fun k _ => ?_
    rw [tr384_apply]
  · refine Finset.sum_congr rfl fun k _ => ?_
    rw [tr384_apply]

/-! ## The two small products against transposed weights -/

/-- The square product against the transposed weights, read at an entry: row against row. -/
theorem dotT128_apply (l : FVec Ideal S400000x128 .f32) (w : FVec Ideal S128x128 .f32) (e : Fin 400000) (c : Fin 128) :
    Host.dotGeneral (F := Ideal) dot_S400000x128_S128x128_S400000x128_1_0_0_1_n_n none l
        (transpose S128x128 [1, 0] w transposes_S128x128_S128x128_1_0) (ix2 e c)
      = ∑ k : Fin 128, l (ix2 e k) * w (ix2 c k) := by
  rw [dot128_apply]
  exact Finset.sum_congr rfl fun k _ => by rw [tr128_apply]

/-- The narrow product against the transposed weights, read at an entry: row against row. -/
theorem dotT26_apply (l : FVec Ideal S400000x26 .f32) (w : FVec Ideal S128x26 .f32) (e : Fin 400000) (c : Fin 128) :
    Host.dotGeneral (F := Ideal) dot_S400000x26_S26x128_S400000x128_1_0_0_1_n_n none l
        (transpose S26x128 [1, 0] w transposes_S128x26_S26x128_1_0) (ix2 e c)
      = ∑ k : Fin 26, l (ix2 e k) * w (ix2 c k) := by
  rw [dot26_apply]
  exact Finset.sum_congr rfl fun k _ => by rw [tr26_apply]

/-! ## The array of messages -/

theorem refZ_eq (ni nj : FVec Ideal S400000x128 .f32) (a4 : FVec Ideal S400000 .f32) (a5 : FVec Ideal S400000x128 .f32)
    (a6 : FVec Ideal S400000x26 .f32) (a7 : FVec Ideal S128x128 .f32) (a8 a9 : FVec Ideal S128x26 .f32)
    (a10 a11 : FVec Ideal S128x384 .f32) :
    refZ ni nj a4 a5 a6 a7 a8 a9 a10 a11 = Cert.EdgeSpec.zSpec ni nj a4 a5 a6 a7 a8 a9 a10 a11 := by
  funext j
  obtain ⟨e, c, rfl⟩ : ∃ (e : Fin 400000) (c : Fin 128), j = ix2 e c := ⟨j 0, j 1, eq_ix2 j⟩
  rw [Cert.EdgeSpec.zSpec_apply]
  unfold refZ Cert.EdgeSpec.zRow Cert.EdgeSpec.edgeRow
  simp only [mulf_apply, addf_apply, sigm_apply, eluR_apply]
  rw [wide_apply, wide_apply, dotT128_apply, dotT26_apply, dotT26_apply]

end Cert.ReferenceIdeal.RefValue

end
-- ==== Proof.PreRange.lean ====
/-
  What the precondition says of the two index inputs: every entry of each, read as a signed word, lies in
  `[-50000, 50000)` — the conjuncts "≥ -50000" and "< 50000" under the two `all`s at the end of the printed predicate.
-/
import proofs.«426576_j80547816669790_3_alg».proof.Pre_finite_inputs
import proofs.«426576_j80547816669790_3_alg».proof.Proof.Gen.Pre_finite_inputs
import proofs.«426576_j80547816669790_3_alg».proof.Proof.IdxRange
import Idealize.ShloMosaic.Lib.ReduceAll
import Idealize.ShloMosaic.Lib.Affine
import Idealize.ShloMosaic.Lib.StableHlo.Predicate
import Idealize.ShloMosaic.Lib.ValueIdx

namespace Cert.PreRange

open Idealize.ShloMosaic Cert.Pre_finite_inputs

variable {F : FTy → Type} [FloatOps F]

instance : Subsingleton Cert.Pre_finite_inputs.S_.Idx := ⟨fun a b => funext fun d => d.elim0⟩

theorem idx_of_pre (a0 : FVec F S50000x128 .f32) (a1 : IVec S50000 32) (a2 a3 : IVec S400000 32) (a4 : FVec F S400000 .f32)
    (a5 : FVec F S400000x128 .f32) (a6 : FVec F S400000x26 .f32) (a7 : FVec F S128x128 .f32) (a8 a9 : FVec F S128x26 .f32)
    (a10 a11 : FVec F S128x384 .f32)
    (h : Cert.Pre_finite_inputs.fn (F := F) a0 a1 a2 a3 a4 a5 a6 a7 a8 a9 a10 a11 = fun _ => 1#1) (i : S400000.Idx) :
    (IntOp.cmpi .sge (a2 i) 4294917296#32 = 1#1 ∧ IntOp.cmpi .slt (a2 i) 50000#32 = 1#1)
      ∧ (IntOp.cmpi .sge (a3 i) 4294917296#32 = 1#1 ∧ IntOp.cmpi .slt (a3 i) 50000#32 = 1#1) := by
  have h0 := congrFun h ValueIdx.ix0
  dsimp only [fn, fn_part1, fn_part2, fn_part3] at h0
  obtain ⟨h1, ht⟩ := IntOp.andi_eq_one.1 h0
  obtain ⟨_, hs⟩ := IntOp.andi_eq_one.1 h1
  have hs' := Host.reduce_andi_all _ _ _ _ _ hs i
  have ht' := Host.reduce_andi_all _ _ _ _ _ ht i
  obtain ⟨s1, s2⟩ := IntOp.andi_eq_one.1 hs'
  obtain ⟨t1, t2⟩ := IntOp.andi_eq_one.1 ht'
  exact ⟨⟨s1, s2⟩, ⟨t1, t2⟩⟩

end Cert.PreRange
-- ==== Proof.lean ====
/-
  A gated graph convolution: for every edge, gather the features of its two end nodes, form the gate's and the MLP's
  logits from those rows and their difference over the edge's length, multiply logistic(gate) · elu(MLP) by a radial term
  plus a gated plane-wave term, and add the message onto the source node's features.

  The fused program gathers with a filling `take` (rows whose index fails a bounds test are replaced by a fill pattern),
  computes all messages in one tiled kernel over blocks of 2000 edges against weight matrices merged pairwise on the host,
  and scatter-adds; the reference indexes plainly, concatenates the three feature blocks and multiplies by the two wide
  weight matrices. On the extended reals the two arrays of messages are the same function of the inputs — a row of 384
  products summed is the three blocks' sums added, the merged weight blocks read back as the matrices' transposed blocks,
  `tpu.logistic` is `1 / (1 + exp (−x))`, and the two spellings of ELU agree — provided no gathered row is filled: the
  precondition says both index vectors hold valid indices into the 50000 rows (in `[-50000, 50000)`, a negative one counted
  from the end), so every normalised index passes the bounds test. The final scatter-add is the same operation on both
  sides, applied to equal operands. No law used here needs the inputs to be finite.
-/
import proofs.«426576_j80547816669790_3_alg».proof.Defs
import proofs.«426576_j80547816669790_3_alg».proof.Proof.Gen.Kernel
import proofs.«426576_j80547816669790_3_alg».proof.Proof.Gen.Kernel.Frame
import proofs.«426576_j80547816669790_3_alg».proof.Proof.Gen.KernelIdeal
import proofs.«426576_j80547816669790_3_alg».proof.Proof.Gen.KernelIdeal.Frame
import proofs.«426576_j80547816669790_3_alg».proof.Proof.Gen.ReferenceIdeal
import proofs.«426576_j80547816669790_3_alg».proof.Proof.Gen.Pre_finite_inputs
import proofs.«426576_j80547816669790_3_alg».proof.Proof.KernelRun
import proofs.«426576_j80547816669790_3_alg».proof.Proof.RefRun
import proofs.«426576_j80547816669790_3_alg».proof.Proof.RefValue
import proofs.«426576_j80547816669790_3_alg».proof.Proof.PreRange
import Idealize.ShloMosaic.Adequacy
import Idealize.ShloMosaic.Init

noncomputable section

namespace Cert.Proof

open Idealize.ShloMosaic Idealize.SL.Sem

/-- The reference runs and leaves its inputs alone: its run with the result dropped. -/
theorem frame_ref : Cert.frame_ReferenceIdeal := fun m ρ _ =>
  (θ_run Cert.ReferenceIdeal.defs _ _).mono (fun _ h c => (h c).2) (Cert.ReferenceIdeal.RefRun.run m ρ)

/-- Under the precondition every row of both index vectors passes the filling gather's bounds test. -/
theorem masks_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j, Cert.KernelIdeal.KerTerm.takeMask (Cert.KernelIdeal.KerTerm.in2 m c) j = 1#1)
      ∧ ∀ j, Cert.KernelIdeal.KerTerm.takeMask (Cert.KernelIdeal.KerTerm.in3 m c) j = 1#1 :=
  ⟨fun j => Cert.KernelIdeal.KerTerm.takeMask_one _ (fun i => (Cert.PreRange.idx_of_pre _ _ _ _ _ _ _ _ _ _ _ _ (hpre c) i).1) j,
    fun j => Cert.KernelIdeal.KerTerm.takeMask_one _ (fun i => (Cert.PreRange.idx_of_pre _ _ _ _ _ _ _ _ _ _ _ _ (hpre c) i).2) j⟩

/-- Both programs end at the node features with one and the same array of messages added onto the source rows. -/
theorem algebraic : Cert.algebraic_KernelIdeal_ReferenceIdeal := by
  intro m ρ m' ρ' hpre hagree
  refine ⟨_, Cert.KernelIdeal.KernelRun.run m ρ (fun c => (masks_of_pre m hpre c).1) (fun c => (masks_of_pre m hpre c).2), ?_⟩
  refine (θ_run Cert.ReferenceIdeal.defs _ _).mono (fun _ h c => ⟨(h c).1.trans ?_, (h c).2⟩)
    (Cert.ReferenceIdeal.RefRun.run m' ρ')
  obtain ⟨e0, -, e2, e3, e4, e5, e6, e7, e8, e9, e10, e11⟩ := hagree c
  rw [e0, e2, e3, e4, e5, e6, e7, e8, e9, e10, e11]
  unfold Cert.ReferenceIdeal.RefTerm.refOut
  rw [Cert.ReferenceIdeal.RefValue.refZ_eq]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
